-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096x1 : Shape := ⟨2, ![4096, 1]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel
  bcast_S_S4096x1 : S_.BroadcastsInDim S4096x1 (![] : Fin 0 → Fin S4096x1.rank)
  reducesTo_S4096x1_S_d0_1 : S4096x1.ReducesTo [0, 1] S_
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S4096 .f32) (main_arg8 : FVec F S1024x1024 .f32) (main_arg9 : FVec F S1024 .f32) (main_v33 : IVec S_ 1) : IVec S_ 1 :=
  let main_v34 : FVec F S4096 .f32 := Host.absf main_arg7
  let main_cst_12 : FVec F S_ .f32 := constant S_ .f32 0x7F800000#32
  let main_v35 : FVec F S4096 .f32 := broadcastInDim S4096 ![] bcast_S_S4096 main_cst_12
  let main_v36 : IVec S4096 1 := cmpf .olt main_v34 main_v35
  let main_c_13 : IVec S_ 1 := constantI S_ 1 1#1
  let main_v37 : IVec S_ 1 := (fun x v => Host.reduce IntOp.andi x v reducesTo_S4096_S_d0 h_S_) main_v36 main_c_13
  let main_v38 : IVec S_ 1 := andi main_v33 main_v37
  let main_v39 : FVec F S1024x1024 .f32 := Host.absf main_arg8
  let main_cst_14 : FVec F S_ .f32 := constant S_ .f32 0x7F800000#32
  let main_v40 : FVec F S1024x1024 .f32 := broadcastInDim S1024x1024 ![] bcast_S_S1024x1024 main_cst_14
  let main_v41 : IVec S1024x1024 1 := cmpf .olt main_v39 main_v40
  let main_c_15 : IVec S_ 1 := constantI S_ 1 1#1
  let main_v42 : IVec S_ 1 := (fun x v => Host.reduce IntOp.andi x v reducesTo_S1024x1024_S_d0_1 h_S_) main_v41 main_c_15
  let main_v43 : IVec S_ 1 := andi main_v38 main_v42
  let main_v44 : FVec F S1024 .f32 := Host.absf main_arg9
  let main_cst_16 : FVec F S_ .f32 := constant S_ .f32 0x7F800000#32
  let main_v45 : FVec F S1024 .f32 := broadcastInDim S1024 ![] bcast_S_S1024 main_cst_16
  let main_v46 : IVec S1024 1 := cmpf .olt main_v44 main_v45
  let main_c_17 : IVec S_ 1 := constantI S_ 1 1#1
  let main_v47 : IVec S_ 1 := (fun x v => Host.reduce IntOp.andi x v reducesTo_S1024_S_d0 h_S_) main_v46 main_c_17
  let main_v48 : IVec S_ 1 := andi main_v43 main_v47
  main_v48

def fn_part1 {F : FTy → Type} [FloatOps F] (main_arg4 : FVec F S4096x512 .f32) (main_arg5 : FVec F S4096x1024 .f32) (main_arg6 : FVec F S4096 .f32) (main_arg7 : FVec F S4096 .f32) (main_arg8 : FVec F S1024x1024 .f32) (main_arg9 : FVec F S1024 .f32) (main_v13 : IVec S_ 1) (main_v16 : IVec S4096x1024 1) : IVec S_ 1 :=
  let main_c_5 : IVec S_ 1 := constantI S_ 1 1#1
  let main_v17 : IVec S_ 1 := (fun x v => Host.reduce IntOp.andi x v reducesTo_S4096x1024_S_d0_1 h_S_) main_v16 main_c_5
  let main_v18 : IVec S_ 1 := andi main_v13 main_v17
  let main_v19 : FVec F S4096x512 .f32 := Host.absf main_arg4
  let main_cst_6 : FVec F S_ .f32 := constant S_ .f32 0x7F800000#32
  let main_v20 : FVec F S4096x512 .f32 := broadcastInDim S4096x512 ![] bcast_S_S4096x512 main_cst_6
  let main_v21 : IVec S4096x512 1 := cmpf .olt main_v19 main_v20
  let main_c_7 : IVec S_ 1 := constantI S_ 1 1#1
  let main_v22 : IVec S_ 1 := (fun x v => Host.reduce IntOp.andi x v reducesTo_S4096x512_S_d0_1 h_S_) main_v21 main_c_7
  let main_v23 : IVec S_ 1 := andi main_v18 main_v22
  let main_v24 : FVec F S4096x1024 .f32 := Host.absf main_arg5
  let main_cst_8 : FVec F S_ .f32 := constant S_ .f32 0x7F800000#32
  let main_v25 : FVec F S4096x1024 .f32 := broadcastInDim S4096x1024 ![] bcast_S_S4096x1024 main_cst_8
  let main_v26 : IVec S4096x1024 1 := cmpf .olt main_v24 main_v25
  let main_c_9 : IVec S_ 1 := constantI S_ 1 1#1
  let main_v27 : IVec S_ 1 := (fun x v => Host.reduce IntOp.andi x v reducesTo_S4096x1024_S_d0_1 h_S_) main_v26 main_c_9
  let main_v28 : IVec S_ 1 := andi main_v23 main_v27
  let main_v29 : FVec F S4096 .f32 := Host.absf main_arg6
  let main_cst_10 : FVec F S_ .f32 := constant S_ .f32 0x7F800000#32
  let main_v30 : FVec F S4096 .f32 := broadcastInDim S4096 ![] bcast_S_S4096 main_cst_10
  let main_v31 : IVec S4096 1 := cmpf .olt main_v29 main_v30
  let main_c_11 : IVec S_ 1 := constantI S_ 1 1#1
  let main_v32 : IVec S_ 1 := (fun x v => Host.reduce IntOp.andi x v reducesTo_S4096_S_d0 h_S_) main_v31 main_c_11
  let main_v33 : IVec S_ 1 := andi main_v28 main_v32
  fn_part2 (F := F) main_arg7 main_arg8 main_arg9 main_v33

def fn {F : FTy → Type} [FloatOps F] (main_arg0 : FVec F S4096x512 .f32) (main_arg1 : FVec F S4096x1 .f32) (main_arg2 : FVec F S4096x1024 .f32) (main_arg3 : FVec F S4096x1024 .f32) (main_arg4 : FVec F S4096x512 .f32) (main_arg5 : FVec F S4096x1024 .f32) (main_arg6 : FVec F S4096 .f32) (main_arg7 : FVec F S4096 .f32) (main_arg8 : FVec F S1024x1024 .f32) (main_arg9 : FVec F S1024 .f32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  let main_v4 : FVec F S4096x1 .f32 := Host.absf main_arg1
  let main_cst_0 : FVec F S_ .f32 := constant S_ .f32 0x7F800000#32
  let main_v5 : FVec F S4096x1 .f32 := broadcastInDim S4096x1 ![] bcast_S_S4096x1 main_cst_0
  let main_v6 : IVec S4096x1 1 := cmpf .olt main_v4 main_v5
  let main_c_1 : IVec S_ 1 := constantI S_ 1 1#1
  let main_v7 : IVec S_ 1 := (fun x v => Host.reduce IntOp.andi x v reducesTo_S4096x1_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S4096x1024 .f32 := Host.absf main_arg3
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg4 main_arg5 main_arg6 main_arg7 main_arg8 main_arg9 main_v13 main_v16
-- ==== Kernel.lean ====
abbrev S4096x512 : Shape := ⟨2, ![4096, 512]⟩
abbrev S4096x1 : Shape := ⟨2, ![4096, 1]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S1x4096 : Shape := ⟨2, ![1, 4096]⟩
abbrev S1x1024 : Shape := ⟨2, ![1, 1024]⟩
abbrev S256x512 : Shape := ⟨2, ![256, 512]⟩
abbrev S256x1024 : Shape := ⟨2, ![256, 1024]⟩
abbrev S256x1 : Shape := ⟨2, ![256, 1]⟩
abbrev S1024x512 : Shape := ⟨2, ![1024, 512]⟩

abbrev nBuf : Space → Nat
  | .hbm => 18
  | .vmem => 18
  | .smem => 0
  | _ => 0

abbrev bufTy : (tb : Table) → Fin (tcTables nBuf tb) → BufTy
  | .hbm, ⟨0, _⟩ => ⟨S4096x512, .f32⟩
  | .hbm, ⟨1, _⟩ => ⟨S4096x1, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S1024x1024, .f32⟩
  | .hbm, ⟨9, _⟩ => ⟨S1024, .f32⟩
  | .hbm, ⟨10, _⟩ => ⟨S4096x512, .bf16⟩
  | .hbm, ⟨11, _⟩ => ⟨S4096x1024, .bf16⟩
  | .hbm, ⟨12, _⟩ => ⟨S1024x1024, .bf16⟩
  | .hbm, ⟨13, _⟩ => ⟨S1x4096, .f32⟩
  | .hbm, ⟨14, _⟩ => ⟨S1x4096, .f32⟩
  | .hbm, ⟨15, _⟩ => ⟨S1x1024, .f32⟩
  | .hbm, ⟨16, _⟩ => ⟨S4096x1024, .f32⟩
  | .hbm, ⟨17, _⟩ => ⟨S4096x1024, .f32⟩
  | .local _ .vmem, ⟨0, _⟩ => ⟨S256x512, .f32⟩
  | .local _ .vmem, ⟨1, _⟩ => ⟨S256x512, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1, .f32⟩
  | .local _ .vmem, ⟨7, _⟩ => ⟨S256x1, .f32⟩
  | .local _ .vmem, ⟨8, _⟩ => ⟨S4096x512, .bf16⟩
  | .local _ .vmem, ⟨9, _⟩ => ⟨S4096x1024, .bf16⟩
  | .local _ .vmem, ⟨10, _⟩ => ⟨S1x4096, .f32⟩
  | .local _ .vmem, ⟨11, _⟩ => ⟨S1x4096, .f32⟩
  | .local _ .vmem, ⟨12, _⟩ => ⟨S1024x1024, .bf16⟩
  | .local _ .vmem, ⟨13, _⟩ => ⟨S1x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S256x1024, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4096x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  bitsLt_bf16_f32 : FTy.bits .bf16 < FTy.bits .f32
  shapeCasts_S4096_S1x4096 : S4096.ShapeCasts S1x4096
  shapeCasts_S1024_S1x1024 : S1024.ShapeCasts S1x1024
  inb_S256x512_S256x512_0_0 : ∀ a, (![0, 0] : Fin 2 → Nat) a + S256x512.size a ≤ S256x512.size a
  h_S256x512 : 0 < S256x512.numel
  inb_S256x1024_S256x1024_0_0 : ∀ a, (![0, 0] : Fin 2 → Nat) a + S256x1024.size a ≤ S256x1024.size a
  h_S256x1024 : 0 < S256x1024.numel
  inb_S256x1_S256x1_0_0 : ∀ a, (![0, 0] : Fin 2 → Nat) a + S256x1.size a ≤ S256x1.size a
  h_S256x1 : 0 < S256x1.numel
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  shapeCasts_S256x1_S256x1 : S256x1.ShapeCasts S256x1
  broadcasts_S256x1_S256x1024 : S256x1.Broadcasts S256x1024
  inb_S4096x512_S1024x512_0_0 : ∀ a, (![0, 0] : Fin 2 → Nat) a + S1024x512.size a ≤ S4096x512.size a
  h_S1024x512 : 0 < S1024x512.numel
  shapeCasts_S1024x512_S1024x512 : S1024x512.ShapeCasts S1024x512
  inb_S4096x1024_S1024x1024_0_0 : ∀ a, (![0, 0] : Fin 2 → Nat) a + S1024x1024.size a ≤ S4096x1024.size a
  inb_S1x4096_S1x1024_0_0 : ∀ a, (![0, 0] : Fin 2 → Nat) a + S1x1024.size a ≤ S1x4096.size a
  inb_S4096x512_S1024x512_1024_0 : ∀ a, (![1024, 0] : Fin 2 → Nat) a + S1024x512.size a ≤ S4096x512.size a
  inb_S4096x1024_S1024x1024_1024_0 : ∀ a, (![1024, 0] : Fin 2 → Nat) a + S1024x1024.size a ≤ S4096x1024.size a
  inb_S1x4096_S1x1024_0_1024 : ∀ a, (![0, 1024] : Fin 2 → Nat) a + S1x1024.size a ≤ S1x4096.size a
  inb_S4096x512_S1024x512_2048_0 : ∀ a, (![2048, 0] : Fin 2 → Nat) a + S1024x512.size a ≤ S4096x512.size a
  inb_S4096x1024_S1024x1024_2048_0 : ∀ a, (![2048, 0] : Fin 2 → Nat) a + S1024x1024.size a ≤ S4096x1024.size a
  inb_S1x4096_S1x1024_0_2048 : ∀ a, (![0, 2048] : Fin 2 → Nat) a + S1x1024.size a ≤ S1x4096.size a
  inb_S4096x512_S1024x512_3072_0 : ∀ a, (![3072, 0] : Fin 2 → Nat) a + S1024x512.size a ≤ S4096x512.size a
  inb_S4096x1024_S1024x1024_3072_0 : ∀ a, (![3072, 0] : Fin 2 → Nat) a + S1024x1024.size a ≤ S4096x1024.size a
  inb_S1x4096_S1x1024_0_3072 : ∀ a, (![0, 3072] : Fin 2 → Nat) a + S1x1024.size a ≤ S1x4096.size a
  dot_S256x1024_S1024x1024_S256x1024_1_0_0_1_n_n_wf : DotDims.WF S256x1024 S1024x1024 S256x1024 [1] [0] [0] [1] [] []
  dot_S256x512_S1024x512_S256x1024_1_1_0_0_n_n_wf : DotDims.WF S256x512 S1024x512 S256x1024 [1] [1] [0] [0] [] []
  dot_S256x1024_S1024x1024_S256x1024_1_1_0_0_n_n_wf : DotDims.WF S256x1024 S1024x1024 S256x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S4096x1.size a
  hwx0_3 : ∀ i : grid0.Coords, EltTy.bits .f32 = 32 ∨ (Rect.block (s := S4096x1) S256x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S4096x512.size a ≤ S4096x512.size a
  hwx0_4 : ∀ i : grid0.Coords, EltTy.bits .bf16 = 32 ∨ (Rect.block (s := S4096x512) S4096x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4096x1024.size a ≤ S4096x1024.size a
  hwx0_5 : ∀ i : grid0.Coords, EltTy.bits .bf16 = 32 ∨ (Rect.block (s := S4096x1024) S4096x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x4096.size a ≤ S1x4096.size a
  hwx0_6 : ∀ i : grid0.Coords, EltTy.bits .f32 = 32 ∨ (Rect.block (s := S1x4096) S1x4096.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x4096.size a ≤ S1x4096.size a
  hwx0_7 : ∀ i : grid0.Coords, EltTy.bits .f32 = 32 ∨ (Rect.block (s := S1x4096) S1x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x1024.size a ≤ S1024x1024.size a
  hwx0_8 : ∀ i : grid0.Coords, EltTy.bits .bf16 = 32 ∨ (Rect.block (s := S1024x1024) S1024x1024.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1024.size a ≤ S1x1024.size a
  hwx0_9 : ∀ i : grid0.Coords, EltTy.bits .f32 = 32 ∨ (Rect.block (s := S1x1024) S1x1024.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S256x1024.size a ≤ S4096x1024.size a
  hwx0_10 : ∀ i : grid0.Coords, EltTy.bits .f32 = 32 ∨ (Rect.block (s := S4096x1024) S256x1024.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x1024.size a ≤ S4096x1024.size a
  hwx0_11 : ∀ i : grid0.Coords, EltTy.bits .f32 = 32 ∨ (Rect.block (s := S4096x1024) S256x1024.size (cc0_transform_11 i) (hinb0_11 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x512_S1024x512_S256x1024_1_1_0_0_n_n : DotDims S256x512 S1024x512 S256x1024 where
  lhsContracting := [1]
  rhsContracting := [1]
  lhsNonContracting := [0]
  rhsNonContracting := [0]
  lhsBatch := []
  rhsBatch := []
  wf := dot_S256x512_S1024x512_S256x1024_1_1_0_0_n_n_wf
def dot_S256x1024_S1024x1024_S256x1024_1_1_0_0_n_n : DotDims S256x1024 S1024x1024 S256x1024 where
  lhsContracting := [1]
  rhsContracting := [1]
  lhsNonContracting := [0]
  rhsNonContracting := [0]
  lhsBatch := []
  rhsBatch := []
  wf := dot_S256x1024_S1024x1024_S256x1024_1_1_0_0_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S256x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S4096x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S4096x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x4096.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v4) S1x4096.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v2) S1024x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1x1024.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v6_0) S256x1024.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v6_1) S256x1024.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096x1 : Shape := ⟨2, ![4096, 1]⟩
abbrev S4096x1024 : Shape := ⟨2, ![4096, 1024]⟩
abbrev S4096 : Shape := ⟨1, ![4096]⟩
abbrev S1024x1024 : Shape := ⟨2, ![1024, 1024]⟩
abbrev S1024 : Shape := ⟨1, ![1024]⟩
abbrev S512x4096 : Shape := ⟨2, ![512, 4096]⟩
abbrev S4096x4096 : Shape := ⟨2, ![4096, 4096]⟩
abbrev S1x4096 : Shape := ⟨2, ![1, 4096]⟩
abbrev S1024x4096 : Shape := ⟨2, ![1024, 4096]⟩
abbrev S_ : Shape := ⟨0, ![]⟩
abbrev S1x1024 : Shape := ⟨2, ![1, 1024]⟩

abbrev nBuf : Space → Nat
  | .hbm => 81
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096x1, .f32⟩
  | .hbm, ⟨2, _⟩ => ⟨S4096x1024, .f32⟩
  | .hbm, ⟨3, _⟩ => ⟨S4096x1024, .f32⟩
  | .hbm, ⟨4, _⟩ => ⟨S4096x512, .f32⟩
  | .hbm, ⟨5, _⟩ => ⟨S4096x1024, .f32⟩
  | .hbm, ⟨6, _⟩ => ⟨S4096, .f32⟩
  | .hbm, ⟨7, _⟩ => ⟨S4096, .f32⟩
  | .hbm, ⟨8, _⟩ => ⟨S1024x1024, .f32⟩
  | .hbm, ⟨9, _⟩ => ⟨S1024, .f32⟩
  | .hbm, ⟨10, _⟩ => ⟨S512x4096, .f32⟩
  | .hbm, ⟨11, _⟩ => ⟨S4096x4096, .f32⟩
  | .hbm, ⟨12, _⟩ => ⟨S1x4096, .f32⟩
  | .hbm, ⟨13, _⟩ => ⟨S4096x4096, .f32⟩
  | .hbm, ⟨14, _⟩ => ⟨S4096x4096, .f32⟩
  | .hbm, ⟨15, _⟩ => ⟨S1024x4096, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1, .f32⟩
  | .hbm, ⟨27, _⟩ => ⟨S4096x1, .i1⟩
  | .hbm, ⟨28, _⟩ => ⟨S_, .f32⟩
  | .hbm, ⟨29, _⟩ => ⟨S4096x1, .f32⟩
  | .hbm, ⟨30, _⟩ => ⟨S4096x1, .i1⟩
  | .hbm, ⟨31, _⟩ => ⟨S_, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S_, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S1x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S_, .f32⟩
  | .hbm, ⟨62, _⟩ => ⟨S4096x1024, .f32⟩
  | .hbm, ⟨63, _⟩ => ⟨S4096x1024, .f32⟩
  | .hbm, ⟨64, _⟩ => ⟨S_, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S_, .f32⟩
  | .hbm, ⟨71, _⟩ => ⟨S4096x1024, .f32⟩
  | .hbm, ⟨72, _⟩ => ⟨S4096x1024, .f32⟩
  | .hbm, ⟨73, _⟩ => ⟨S_, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_cst_0 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_4 : Ref sig .tc := ⟨.hbm, 53, rfl⟩
abbrev main_v34 : Ref sig .tc := ⟨.hbm, 54, rfl⟩
abbrev main_v35 : Ref sig .tc := ⟨.hbm, 55, rfl⟩
abbrev main_cst_5 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_cst_6 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_8 : Ref sig .tc := ⟨.hbm, 70, rfl⟩
abbrev main_v47 : Ref sig .tc := ⟨.hbm, 71, rfl⟩
abbrev main_v48 : Ref sig .tc := ⟨.hbm, 72, rfl⟩
abbrev main_cst_9 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  transposes_S4096x1024_S1024x4096_1_0 : S4096x1024.Transposes [1, 0] S1024x4096
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1 : S_.BroadcastsInDim S4096x1 (![] : Fin 0 → Fin S4096x1.rank)
  bcast_S4096x1_S4096x1024_0_1 : S4096x1.BroadcastsInDim S4096x1024 (![0, 1] : Fin 2 → Fin S4096x1024.rank)
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  bcast_S_S4096x1024 : S_.BroadcastsInDim S4096x1024 (![] : Fin 0 → Fin S4096x1024.rank)
  dot_S4096x512_S512x4096_S4096x4096_1_0_0_1_n_n_wf : DotDims.WF S4096x512 S512x4096 S4096x4096 [1] [0] [0] [1] [] []
  dot_S4096x1024_S1024x4096_S4096x4096_1_0_0_1_n_n_wf : DotDims.WF S4096x1024 S1024x4096 S4096x4096 [1] [0] [0] [1] [] []
  dot_S4096x1024_S1024x1024_S4096x1024_1_0_0_1_n_n_wf : DotDims.WF S4096x1024 S1024x1024 S4096x1024 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf

class Facts : Prop extends Facts₀ where

variable [Facts]
-- ==== Proof.Cell.lean ====
/-
  The time-aware LSTM cell, one batch element at a time, on the extended reals.

  A batch element is a row `x` of 512 inputs, a hidden row `h` and a cell row `c` of 1024 entries each, and an
  elapsed time `t`. The weights are the four gates' input weights stacked by rows (4096 × 512), their recurrent
  weights stacked the same way (4096 × 1024), two stacked bias vectors, and the square matrix and bias of the
  short-term memory. Row `g · 1024 + j` of a stacked array belongs to gate `g` (input, forget, cell, output) and
  hidden unit `j`.

  For unit `j`:
    pre r       = (Σₖ x k · wi r k + Σₖ h k · wh r k) + bi r + bh r                (row `r` of the stacked gates)
    short j     = tanh (Σₖ c k · wd k j + bd j)                                     (the short-term memory)
    adjusted j  = (c j − short j) + decay t · short j,   decay t = 1/t if t ≠ 0, else 0
    cell' j     = σ (pre (1024 + j)) · adjusted j + σ (pre j) · tanh (pre (2048 + j))
    hidden' j   = σ (pre (3072 + j)) · tanh (cell' j)
  with σ x = 1 / (1 + e^(−x)). Everything is read with the exact operations of the extended reals, so nothing here
  depends on the order in which a sum is accumulated or on the width its factors were rounded to.
-/
import Idealize.ShloMosaic.PureOps.Ideal
import Idealize.ShloMosaic.Lib.ValueIdx

noncomputable section

namespace Cert.TLstm

open Idealize.ShloMosaic Idealize.ShloMosaic.ValueIdx

/-- The cell's weights, each read by row and column. -/
structure Weights where
  wi : Fin 4096 → Fin 512 → EReal
  wh : Fin 4096 → Fin 1024 → EReal
  bi : Fin 4096 → EReal
  bh : Fin 4096 → EReal
  wd : Fin 1024 → Fin 1024 → EReal
  bd : Fin 1024 → EReal

/-- One batch element: its input row, hidden row, cell row and elapsed time. -/
structure Sample where
  x : Fin 512 → EReal
  h : Fin 1024 → EReal
  c : Fin 1024 → EReal
  t : EReal

/-- The words both programs spell zero and one with. -/
abbrev zeroW : EReal := Ideal.ofBits .f32 0x00000000#32
abbrev oneW : EReal := Ideal.ofBits .f32 0x3F800000#32

/-- The word for one denotes one. -/
theorem oneW_eq : oneW = 1 := by
  simp [Ideal.ofBits, Ideal.ieee, -EReal.coe_mul]; norm_num

/-- The logistic function spelt out with the word for one. -/
theorem sigmoid_eq (x : EReal) : Ideal.div oneW (oneW + Ideal.exp (-x)) = Ideal.logistic x := by
  rw [oneW_eq]; rfl

/-- The time decay: `1 / t` where `t ≠ 0` (the divisor replaced by one elsewhere, so that nothing divides by zero),
    and zero where `t = 0`. -/
def decay (t : EReal) : EReal :=
  Scalar.select (Ideal.cmp .one t zeroW) (Ideal.div oneW (Scalar.select (Ideal.cmp .one t zeroW) t oneW)) zeroW

/-- Row `off + j` of the stacked gate arrays: hidden unit `j` of the gate whose rows start at `off`. -/
def gateRow (off : Nat) (hoff : off + 1024 ≤ 4096) (j : Fin 1024) : Fin 4096 := ⟨off + j.val, by have := j.isLt; omega⟩

/-- A gate row's pre-activation: input row against the row of input weights, hidden row against the row of
    recurrent weights, then the two biases. -/
def pre (W : Weights) (s : Sample) (r : Fin 4096) : EReal :=
  (∑ k : Fin 512, s.x k * W.wi r k) + (∑ k : Fin 1024, s.h k * W.wh r k) + W.bi r + W.bh r

/-- The short-term memory of unit `j`. -/
def shortTerm (W : Weights) (s : Sample) (j : Fin 1024) : EReal :=
  Ideal.tanh ((∑ k : Fin 1024, s.c k * W.wd k j) + W.bd j)

/-- The cell state with its short-term part discounted by the elapsed time. -/
def adjusted (W : Weights) (s : Sample) (j : Fin 1024) : EReal :=
  (s.c j - shortTerm W s j) + decay s.t * shortTerm W s j

/-- The new cell state of unit `j`. -/
def cellNext (W : Weights) (s : Sample) (j : Fin 1024) : EReal :=
  Ideal.logistic (pre W s (gateRow 1024 (by decide) j)) * adjusted W s j
    + Ideal.logistic (pre W s (gateRow 0 (by decide) j)) * Ideal.tanh (pre W s (gateRow 2048 (by decide) j))

/-- The new hidden state of unit `j`. -/
def hiddenNext (W : Weights) (s : Sample) (j : Fin 1024) : EReal :=
  Ideal.logistic (pre W s (gateRow 3072 (by decide) j)) * Ideal.tanh (cellNext W s j)

/-! ## The whole arrays -/

/-- The weights as the six argument arrays hold them. -/
def arrWeights (a4 : FVec Ideal ⟨2, ![4096, 512]⟩ .f32) (a5 : FVec Ideal ⟨2, ![4096, 1024]⟩ .f32)
    (a6 a7 : FVec Ideal ⟨1, ![4096]⟩ .f32) (a8 : FVec Ideal ⟨2, ![1024, 1024]⟩ .f32) (a9 : FVec Ideal ⟨1, ![1024]⟩ .f32) : Weights where
  wi r k := a4 (ix2 r k)
  wh r k := a5 (ix2 r k)
  bi r := a6 (ix1 r)
  bh r := a7 (ix1 r)
  wd k j := a8 (ix2 k j)
  bd j := a9 (ix1 j)

/-- Batch element `b` of the four batched argument arrays. -/
def arrSample (a0 : FVec Ideal ⟨2, ![4096, 512]⟩ .f32) (a1 : FVec Ideal ⟨2, ![4096, 1]⟩ .f32)
    (a2 a3 : FVec Ideal ⟨2, ![4096, 1024]⟩ .f32) (b : Fin 4096) : Sample where
  x k := a0 (ix2 b k)
  h k := a2 (ix2 b k)
  c k := a3 (ix2 b k)
  t := a1 (ix2 b 0)

/-- The new cell state as one array of the ten argument arrays. -/
def cellArr (a0 : FVec Ideal ⟨2, ![4096, 512]⟩ .f32) (a1 : FVec Ideal ⟨2, ![4096, 1]⟩ .f32)
    (a2 a3 : FVec Ideal ⟨2, ![4096, 1024]⟩ .f32) (a4 : FVec Ideal ⟨2, ![4096, 512]⟩ .f32) (a5 : FVec Ideal ⟨2, ![4096, 1024]⟩ .f32)
    (a6 a7 : FVec Ideal ⟨1, ![4096]⟩ .f32) (a8 : FVec Ideal ⟨2, ![1024, 1024]⟩ .f32) (a9 : FVec Ideal ⟨1, ![1024]⟩ .f32) :
    FVec Ideal ⟨2, ![4096, 1024]⟩ .f32 :=
  fun i => cellNext (arrWeights a4 a5 a6 a7 a8 a9) (arrSample a0 a1 a2 a3 ⟨(i 0).val, (i 0).isLt⟩) ⟨(i 1).val, (i 1).isLt⟩

/-- The new hidden state as one array of the ten argument arrays. -/
def hiddenArr (a0 : FVec Ideal ⟨2, ![4096, 512]⟩ .f32) (a1 : FVec Ideal ⟨2, ![4096, 1]⟩ .f32)
    (a2 a3 : FVec Ideal ⟨2, ![4096, 1024]⟩ .f32) (a4 : FVec Ideal ⟨2, ![4096, 512]⟩ .f32) (a5 : FVec Ideal ⟨2, ![4096, 1024]⟩ .f32)
    (a6 a7 : FVec Ideal ⟨1, ![4096]⟩ .f32) (a8 : FVec Ideal ⟨2, ![1024, 1024]⟩ .f32) (a9 : FVec Ideal ⟨1, ![1024]⟩ .f32) :
    FVec Ideal ⟨2, ![4096, 1024]⟩ .f32 :=
  fun i => hiddenNext (arrWeights a4 a5 a6 a7 a8 a9) (arrSample a0 a1 a2 a3 ⟨(i 0).val, (i 0).isLt⟩) ⟨(i 1).val, (i 1).isLt⟩

end Cert.TLstm

end
-- ==== Proof.LibDot.lean ====
/-
  A plain matrix product read at an entry, at the ideal values.

  Every product in the network is "rows by columns": an `M × K` array against a `K × N` array, contracting the one
  shared axis, no batch axis. At the ideal values both the kernel's product into a zero accumulator and the host's
  product are, at entry `(p, q)`, the sum over `k` of `lhs (p, k) · rhs (k, q)`: no rounding and no order of
  accumulation is left in it. The two lemmas say so once, for all sizes; a printed dimension record of this kind is
  `DotDims.plain M K N` up to its well-formedness proof.
-/
import Idealize.ShloMosaic.PureOps.Ideal.Laws
import Idealize.ShloMosaic.Lib.ValueIdx

noncomputable section

namespace Cert.GNN

open Idealize.ShloMosaic Idealize.ShloMosaic.ValueIdx

variable {M K N : ℕ}

theorem plain_lhs0 (i : (⟨2, ![M, N]⟩ : Shape).Idx) (κ : (DotDims.plain M K N).contr.Idx) :
    ((DotDims.plain M K N).lhsIdx i κ 0).val = (i 0).val := rfl
theorem plain_lhs1 (i : (⟨2, ![M, N]⟩ : Shape).Idx) (κ : (DotDims.plain M K N).contr.Idx) :
    ((DotDims.plain M K N).lhsIdx i κ 1).val = (κ ⟨0, Nat.one_pos⟩).val := rfl
theorem plain_rhs0 (i : (⟨2, ![M, N]⟩ : Shape).Idx) (κ : (DotDims.plain M K N).contr.Idx) :
    ((DotDims.plain M K N).rhsIdx i κ 0).val = (κ ⟨0, Nat.one_pos⟩).val := rfl
theorem plain_rhs1 (i : (⟨2, ![M, N]⟩ : Shape).Idx) (κ : (DotDims.plain M K N).contr.Idx) :
    ((DotDims.plain M K N).rhsIdx i κ 1).val = (i 1).val := rfl

/-- The sum over the contraction index of a plain product, re-indexed by `k : Fin K`. -/
theorem plain_sum {φ₁ φ₂ : FTy} (lhs : FVec Ideal ⟨2, ![M, K]⟩ φ₁) (rhs : FVec Ideal ⟨2, ![K, N]⟩ φ₂) (p : Fin M) (q : Fin N) :
    (∑ κ : (DotDims.plain M K N).contr.Idx,
        lhs ((DotDims.plain M K N).lhsIdx (ix2 p q) κ) * rhs ((DotDims.plain M K N).rhsIdx (ix2 p q) κ))
      = ∑ k : Fin K, lhs (ix2 p k) * rhs (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => exact plain_lhs0 _ _
      | ⟨1, _⟩ => exact (plain_lhs1 _ _).trans hk)
  have er : (DotDims.plain M K N).rhsIdx (ix2 p q) ((contrEquiv1 (DotDims.plain M K N) K rfl rfl).symm k) = ix2 k q :=
    funext fun a => Fin.ext (by
      match a with
      | ⟨0, _⟩ => exact (plain_rhs0 _ _).trans hk
      | ⟨1, _⟩ => exact plain_rhs1 _ _)
  rw [el, er]

/-- A kernel's plain product into the zero accumulator, read at entry `(p, q)`. -/
theorem matmul_plain_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's plain product, read at entry `(p, q)`. -/
theorem dotGeneral_plain_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

end Cert.GNN

end
-- ==== Proof.LibDotT.lean ====
/-
  A product "rows by rows" read at an entry, at the ideal values.

  An `M × K` array against an `N × K` array, both contracted on their last axis, no batch axis: entry `(p, q)` of the
  result pairs row `p` of the left operand with row `q` of the right one. At the ideal values the kernel's product
  into a zero accumulator is, at that entry, the sum over `k` of `lhs (p, k) · rhs (q, k)`: no rounding and no order
  of accumulation is left in it. A printed dimension record of this kind is `DotDims.transposedRhs M K N` up to its
  well-formedness proof.
-/
import Idealize.ShloMosaic.PureOps.Ideal.Laws
import Idealize.ShloMosaic.Lib.ValueIdx

noncomputable section

namespace Cert.TLstm

open Idealize.ShloMosaic Idealize.ShloMosaic.ValueIdx

variable {M K N : ℕ}

theorem rowsT_lhs0 (i : (⟨2, ![M, N]⟩ : Shape).Idx) (κ : (DotDims.transposedRhs M K N).contr.Idx) :
    ((DotDims.transposedRhs M K N).lhsIdx i κ 0).val = (i 0).val := rfl
theorem rowsT_lhs1 (i : (⟨2, ![M, N]⟩ : Shape).Idx) (κ : (DotDims.transposedRhs M K N).contr.Idx) :
    ((DotDims.transposedRhs M K N).lhsIdx i κ 1).val = (κ ⟨0, Nat.one_pos⟩).val := rfl
theorem rowsT_rhs0 (i : (⟨2, ![M, N]⟩ : Shape).Idx) (κ : (DotDims.transposedRhs M K N).contr.Idx) :
    ((DotDims.transposedRhs M K N).rhsIdx i κ 0).val = (i 1).val := rfl
theorem rowsT_rhs1 (i : (⟨2, ![M, N]⟩ : Shape).Idx) (κ : (DotDims.transposedRhs M K N).contr.Idx) :
    ((DotDims.transposedRhs M K N).rhsIdx i κ 1).val = (κ ⟨0, Nat.one_pos⟩).val := rfl

/-- The sum over the contraction index of a rows-by-rows product, re-indexed by `k : Fin K`. -/
theorem rowsT_sum {φ₁ φ₂ : FTy} (lhs : FVec Ideal ⟨2, ![M, K]⟩ φ₁) (rhs : FVec Ideal ⟨2, ![N, K]⟩ φ₂) (p : Fin M) (q : Fin N) :
    (∑ κ : (DotDims.transposedRhs M K N).contr.Idx,
        lhs ((DotDims.transposedRhs M K N).lhsIdx (ix2 p q) κ) * rhs ((DotDims.transposedRhs M K N).rhsIdx (ix2 p q) κ))
      = ∑ k : Fin K, lhs (ix2 p k) * rhs (ix2 q k) := by
  rw [← Equiv.sum_comp (contrEquiv1 (DotDims.transposedRhs M K N) K rfl rfl).symm]
  refine Finset.sum_congr rfl fun k _ => ?_
  have hk := contrEquiv1_symm_val (DotDims.transposedRhs M K N) K rfl rfl k
  have el : (DotDims.transposedRhs M K N).lhsIdx (ix2 p q) ((contrEquiv1 (DotDims.transposedRhs M K N) K rfl rfl).symm k) = ix2 p k :=
    funext fun a => Fin.ext (by
      match a with
      | ⟨0, _⟩ => exact rowsT_lhs0 _ _
      | ⟨1, _⟩ => exact (rowsT_lhs1 _ _).trans hk)
  have er : (DotDims.transposedRhs M K N).rhsIdx (ix2 p q) ((contrEquiv1 (DotDims.transposedRhs M K N) K rfl rfl).symm k) = ix2 q k :=
    funext fun a => Fin.ext (by
      match a with
      | ⟨0, _⟩ => exact rowsT_rhs0 _ _
      | ⟨1, _⟩ => exact (rowsT_rhs1 _ _).trans hk)
  rw [el, er]

/-- A kernel's rows-by-rows product into the zero accumulator, read at entry `(p, q)`. -/
theorem matmul_rowsT_zero_apply {φ₁ φ₂ : FTy} (prec : Option ContractPrecision)
    (lhs : FVec Ideal ⟨2, ![M, K]⟩ φ₁) (rhs : FVec Ideal ⟨2, ![N, K]⟩ φ₂) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  rw [Ideal.matmul_constant_zero_apply]
  exact rowsT_sum lhs rhs p q

end Cert.TLstm

end
-- ==== Proof.KernelCell.lean ====
/-
  What the kernel's body leaves in its two output blocks, entry by entry.

  A grid point works on 256 batch elements: its blocks of the input, hidden, cell and time arrays are 256 rows each,
  and it sees the six weight arrays whole (the stacked biases as a 1 × 4096 row, the short-term bias as a 1 × 1024
  row). The body slices the stacked weights and biases gate by gate (1024 rows, or 1024 columns of the bias row, at
  offsets 0, 1024, 2048, 3072), forms each gate's pre-activation as two products "rows by rows" plus the two bias
  rows, the short-term memory as a plain product plus its bias row, and combines them pointwise. Read at entry
  `(p, q)` of the block, the value stored to the cell output is the cell formula of batch element `p` of the blocks
  and hidden unit `q`, and the value stored to the hidden output is the hidden formula of the same.
-/
import proofs.«154563_j7344394076758_1_alg».proof.Proof.Gen.KernelIdeal.Frame
import proofs.«154563_j7344394076758_1_alg».proof.Proof.Cell
import proofs.«154563_j7344394076758_1_alg».proof.Proof.LibDot
import proofs.«154563_j7344394076758_1_alg».proof.Proof.LibDotT
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.TcCoe Idealize.ShloMosaic.ValueIdx
open Cert.TLstm

/-! ## The block's samples and weights -/

/-- The weights as a grid point's six resident blocks hold them. -/
def blkWeights (x4 : FVec Ideal S4096x512 .bf16) (x5 : FVec Ideal S4096x1024 .bf16) (x6 x7 : FVec Ideal S1x4096 .f32)
    (x8 : FVec Ideal S1024x1024 .bf16) (x9 : FVec Ideal S1x1024 .f32) : Weights where
  wi r k := x4 (ix2 r k)
  wh r k := x5 (ix2 r k)
  bi r := x6 (ix2 0 r)
  bh r := x7 (ix2 0 r)
  wd k j := x8 (ix2 k j)
  bd j := x9 (ix2 0 j)

/-- Batch element `p` of a grid point's four batched blocks. -/
def blkSample (x0 : FVec Ideal S256x512 .f32) (x1 x2 : FVec Ideal S256x1024 .f32) (x3 : FVec Ideal S256x1 .f32) (p : Fin 256) : Sample where
  x k := x0 (ix2 p k)
  h k := x1 (ix2 p k)
  c k := x2 (ix2 p k)
  t := x3 (ix2 p 0)

/-! ## Layout steps read at an entry -/

theorem hz : (![0, 0] : Fin 2 → Nat) = fun _ => 0 := funext fun a => by fin_cases a <;> rfl

/-- A 1 × 1024 row broadcast down 256 rows reads its column. -/
theorem bcastRow_apply (b : FVec Ideal S1x1024 .f32) (p : Fin 256) (q : Fin 1024) :
    broadcastTo S256x1024 b broadcasts_S1x1024_S256x1024 (ix2 p q) = b (ix2 0 q) :=
  broadcastTo_apply b broadcasts_S1x1024_S256x1024 (ix2 p q) (ix2 0 q) (fun a => match a with
    | ⟨0, _⟩ => by show 0 = (if (1 : Nat) = 1 then 0 else p.val); rw [if_pos rfl]
    | ⟨1, _⟩ => by show q.val = (if (1024 : Nat) = 1 then 0 else q.val); rw [if_neg (by decide)])

/-- A 256 × 1 column broadcast across 1024 columns reads its row. -/
theorem bcastCol_apply (b : FVec Ideal S256x1 .f32) (p : Fin 256) (q : Fin 1024) :
    broadcastTo S256x1024 b broadcasts_S256x1_S256x1024 (ix2 p q) = b (ix2 p 0) :=
  broadcastTo_apply b broadcasts_S256x1_S256x1024 (ix2 p q) (ix2 p 0) (fun a => match a with
    | ⟨0, _⟩ => by show p.val = (if (256 : Nat) = 1 then 0 else p.val); rw [if_neg (by decide)]
    | ⟨1, _⟩ => by show 0 = (if (1 : Nat) = 1 then 0 else q.val); rw [if_pos rfl])

/-- Rows `off …` of the stacked input weights, read at `(q, k)`. -/
theorem rowsI_idx (off : Nat) (inb : ∀ a, (![off, 0] : Fin 2 → Nat) a + S1024x512.size a ≤ S4096x512.size a) (hoff : off + 1024 ≤ 4096)
    (q : Fin 1024) (k : Fin 512) :
    (Rect.unit (s := S4096x512) ![off, 0] S1024x512.size inb).idx (ix2 q k) = ix2 (gateRow off hoff q) k :=
  funext fun a => Fin.ext (by
    match a with
    | ⟨0, _⟩ => show off + 1 * q.val = off + q.val; omega
    | ⟨1, _⟩ => show 0 + 1 * k.val = k.val; omega)

/-- Rows `off …` of the stacked recurrent weights, read at `(q, k)`. -/
theorem rowsH_idx (off : Nat) (inb : ∀ a, (![off, 0] : Fin 2 → Nat) a + S1024x1024.size a ≤ S4096x1024.size a) (hoff : off + 1024 ≤ 4096)
    (q k : Fin 1024) :
    (Rect.unit (s := S4096x1024) ![off, 0] S1024x1024.size inb).idx (ix2 q k) = ix2 (gateRow off hoff q) k :=
  funext fun a => Fin.ext (by
    match a with
    | ⟨0, _⟩ => show off + 1 * q.val = off + q.val; omega
    | ⟨1, _⟩ => show 0 + 1 * k.val = k.val; omega)

/-- Columns `off …` of a stacked bias row, read at `(0, q)`. -/
theorem colsB_idx (off : Nat) (inb : ∀ a, (![0, off] : Fin 2 → Nat) a + S1x1024.size a ≤ S1x4096.size a) (hoff : off + 1024 ≤ 4096)
    (q : Fin 1024) :
    (Rect.unit (s := S1x4096) ![0, off] S1x1024.size inb).idx (ix2 0 q) = ix2 0 (gateRow off hoff q) :=
  funext fun a => Fin.ext (by
    match a with
    | ⟨0, _⟩ => show 0 + 1 * 0 = 0; omega
    | ⟨1, _⟩ => show off + 1 * q.val = off + q.val; omega)

/-! ## The products read at an entry -/

/-- Input rows against 1024 rows of input weights. -/
theorem prodI_apply (v : FVec Ideal S256x512 .bf16) (w : FVec Ideal S1024x512 .bf16) (p : Fin 256) (q : Fin 1024) :
    FloatOps.matmul dot_S256x512_S1024x512_S256x1024_1_1_0_0_n_n none v w (constant S256x1024 .f32 0x00000000#32) (ix2 p q)
      = ∑ k : Fin 512, v (ix2 p k) * w (ix2 q k) :=
  matmul_rowsT_zero_apply (M := 256) (K := 512) (N := 1024) none v w p q

/-- Hidden rows against 1024 rows of recurrent weights. -/
theorem prodH_apply (v : FVec Ideal S256x1024 .bf16) (w : FVec Ideal S1024x1024 .bf16) (p : Fin 256) (q : Fin 1024) :
    FloatOps.matmul dot_S256x1024_S1024x1024_S256x1024_1_1_0_0_n_n none v w (constant S256x1024 .f32 0x00000000#32) (ix2 p q)
      = ∑ k : Fin 1024, v (ix2 p k) * w (ix2 q k) :=
  matmul_rowsT_zero_apply (M := 256) (K := 1024) (N := 1024) none v w p q

/-- Cell rows against the short-term matrix. -/
theorem prodD_apply (v : FVec Ideal S256x1024 .bf16) (w : FVec Ideal S1024x1024 .bf16) (p : Fin 256) (q : Fin 1024) :
    FloatOps.matmul dot_S256x1024_S1024x1024_S256x1024_1_0_0_1_n_n none v w (constant S256x1024 .f32 0x00000000#32) (ix2 p q)
      = ∑ k : Fin 1024, v (ix2 p k) * w (ix2 k q) :=
  Cert.GNN.matmul_plain_zero_apply (M := 256) (K := 1024) (N := 1024) none v w p q

/-! ## The body's values read at an entry -/

theorem tanh_apply {s : Shape} {φ : FTy} (a : FVec Ideal s φ) (i : s.Idx) : tanh a i = Ideal.tanh (a i) := rfl
theorem logistic_apply {s : Shape} {φ : FTy} (a : FVec Ideal s φ) (i : s.Idx) : logistic a i = Ideal.logistic (a i) := rfl

/-- Rounding the input block to the narrower format changes nothing at the ideal values. -/
theorem pay3_apply (v0 : FVec Ideal S256x512 .f32) (i : S256x512.Idx) : k0_pay3 (F := Ideal) v0 i = v0 i := rfl
theorem pay4_apply (v2 : FVec Ideal S256x1024 .f32) (i : S256x1024.Idx) : k0_pay4 (F := Ideal) v2 i = v2 i := rfl

/-- One gate's pre-activation: the two products, then the gate's two bias rows. -/
theorem gate_apply (v1 : FVec Ideal S256x512 .bf16) (v3 : FVec Ideal S256x1024 .bf16)
    (wi : FVec Ideal S1024x512 .bf16) (wh : FVec Ideal S1024x1024 .bf16) (bi bh : FVec Ideal S1x1024 .f32)
    (p : Fin 256) (q : Fin 1024) :
    addf (addf (addf (matmul dot_S256x512_S1024x512_S256x1024_1_1_0_0_n_n none v1 wi (constant S256x1024 .f32 0x00000000#32))
        (matmul dot_S256x1024_S1024x1024_S256x1024_1_1_0_0_n_n none v3 wh (constant S256x1024 .f32 0x00000000#32)))
        (broadcastTo S256x1024 bi broadcasts_S1x1024_S256x1024)) (broadcastTo S256x1024 bh broadcasts_S1x1024_S256x1024) (ix2 p q)
      = (∑ k : Fin 512, v1 (ix2 p k) * wi (ix2 q k)) + (∑ k : Fin 1024, v3 (ix2 p k) * wh (ix2 q k)) + bi (ix2 0 q) + bh (ix2 0 q) := by
  show (FloatOps.matmul dot_S256x512_S1024x512_S256x1024_1_1_0_0_n_n none v1 wi (constant S256x1024 .f32 0x00000000#32) (ix2 p q)
      + FloatOps.matmul dot_S256x1024_S1024x1024_S256x1024_1_1_0_0_n_n none v3 wh (constant S256x1024 .f32 0x00000000#32) (ix2 p q))
      + broadcastTo S256x1024 bi broadcasts_S1x1024_S256x1024 (ix2 p q) + broadcastTo S256x1024 bh broadcasts_S1x1024_S256x1024 (ix2 p q) = _
  rw [prodI_apply, prodH_apply, bcastRow_apply, bcastRow_apply]

/-- The input gate's value. -/
theorem pay9_apply (v1 : FVec Ideal S256x512 .bf16) (v3 : FVec Ideal S256x1024 .bf16)
    (v29 : FVec Ideal S1024x512 .bf16) (v31 : FVec Ideal S1024x1024 .bf16) (v33 v34 : FVec Ideal S1x1024 .f32) (p : Fin 256) (q : Fin 1024) :
    k0_pay9 (F := Ideal) v1 v3 v29 v31 v33 v34 (ix2 p q)
      = Ideal.logistic ((∑ k : Fin 512, v1 (ix2 p k) * v29 (ix2 q k)) + (∑ k : Fin 1024, v3 (ix2 p k) * v31 (ix2 q k)) + v33 (ix2 0 q) + v34 (ix2 0 q)) := by
  unfold k0_pay9
  simp only [shapeCast_self]
  exact congrArg Ideal.logistic (gate_apply v1 v3 v29 v31 v33 v34 p q)

/-- The forget gate's value. -/
theorem pay10_apply (v1 : FVec Ideal S256x512 .bf16) (v3 : FVec Ideal S256x1024 .bf16)
    (v44 : FVec Ideal S1024x512 .bf16) (v46 : FVec Ideal S1024x1024 .bf16) (v48 v50 : FVec Ideal S1x1024 .f32) (p : Fin 256) (q : Fin 1024) :
    k0_pay10 (F := Ideal) v1 v3 v44 v46 v48 v50 (ix2 p q)
      = Ideal.logistic ((∑ k : Fin 512, v1 (ix2 p k) * v44 (ix2 q k)) + (∑ k : Fin 1024, v3 (ix2 p k) * v46 (ix2 q k)) + v48 (ix2 0 q) + v50 (ix2 0 q)) := by
  unfold k0_pay10
  simp only [shapeCast_self]
  exact congrArg Ideal.logistic (gate_apply v1 v3 v44 v46 v48 v50 p q)

/-- The cell gate's two products. -/
theorem pay12_apply (v1 : FVec Ideal S256x512 .bf16) (v3 : FVec Ideal S256x1024 .bf16)
    (v60 : FVec Ideal S1024x512 .bf16) (v62 : FVec Ideal S1024x1024 .bf16) (p : Fin 256) (q : Fin 1024) :
    k0_pay12 (F := Ideal) v1 v3 v60 v62 (ix2 p q)
      = (∑ k : Fin 512, v1 (ix2 p k) * v60 (ix2 q k)) + (∑ k : Fin 1024, v3 (ix2 p k) * v62 (ix2 q k)) := by
  unfold k0_pay12
  simp only [shapeCast_self]
  show FloatOps.matmul dot_S256x512_S1024x512_S256x1024_1_1_0_0_n_n none v1 v60 (constant S256x1024 .f32 0x00000000#32) (ix2 p q)
      + FloatOps.matmul dot_S256x1024_S1024x1024_S256x1024_1_1_0_0_n_n none v3 v62 (constant S256x1024 .f32 0x00000000#32) (ix2 p q) = _
  rw [prodI_apply, prodH_apply]

/-- The cell gate's first bias row, broadcast. -/
theorem pay13_apply (v64 : FVec Ideal S1x1024 .f32) (p : Fin 256) (q : Fin 1024) :
    k0_pay13 (F := Ideal) v64 (ix2 p q) = v64 (ix2 0 q) := by
  unfold k0_pay13
  simp only [shapeCast_self]
  exact bcastRow_apply v64 p q

/-- The cell gate's second bias row. -/
theorem pay11_eq (v66 : FVec Ideal S1x1024 .f32) : k0_pay11 (F := Ideal) v66 = v66 := by
  unfold k0_pay11
  simp only [shapeCast_self]

theorem pay6_eq (v : FVec Ideal S1024x512 .bf16) : k0_pay6 (F := Ideal) v = v := by
  unfold k0_pay6
  simp only [shapeCast_self]

theorem pay7_eq (v : FVec Ideal S1024x1024 .bf16) : k0_pay7 (F := Ideal) v = v := by
  unfold k0_pay7
  simp only [shapeCast_self]

theorem pay8_eq (v : FVec Ideal S1x1024 .f32) : k0_pay8 (F := Ideal) v = v := by
  unfold k0_pay8
  simp only [shapeCast_self]

/-- The cell state with its short-term part discounted. -/
theorem pay5_apply (v4 : FVec Ideal S256x1024 .f32) (v6 : FVec Ideal S256x1 .f32) (v7 : FVec Ideal S1024x1024 .bf16)
    (v9 : FVec Ideal S1x1024 .f32) (p : Fin 256) (q : Fin 1024) :
    k0_pay5 (F := Ideal) v4 v6 v7 v9 (ix2 p q)
      = (v4 (ix2 p q) - Ideal.tanh ((∑ k : Fin 1024, v4 (ix2 p k) * v7 (ix2 k q)) + v9 (ix2 0 q)))
        + decay (v6 (ix2 p 0)) * Ideal.tanh ((∑ k : Fin 1024, v4 (ix2 p k) * v7 (ix2 k q)) + v9 (ix2 0 q)) := by
  unfold k0_pay5
  simp only [shapeCast_self]
  simp only [addf_apply, subf_apply, mulf_apply, tanh_apply, truncf_apply, prodD_apply, bcastRow_apply, bcastCol_apply]
  rfl

/-- The new cell state over the gates' values. -/
theorem pay1_apply (v27 v43 v59 : FVec Ideal S256x1024 .f32) (v67 : FVec Ideal S1x1024 .f32) (v70 v71 : FVec Ideal S256x1024 .f32)
    (p : Fin 256) (q : Fin 1024) :
    k0_pay1 (F := Ideal) v27 v43 v59 v67 v70 v71 (ix2 p q)
      = v59 (ix2 p q) * v27 (ix2 p q) + v43 (ix2 p q) * Ideal.tanh (v70 (ix2 p q) + v71 (ix2 p q) + v67 (ix2 0 q)) := by
  unfold k0_pay1
  simp only [addf_apply, mulf_apply, tanh_apply, bcastRow_apply]

/-- The new hidden state: the output gate's value times the squashed new cell state. -/
theorem pay2_apply (v1 : FVec Ideal S256x512 .bf16) (v3 : FVec Ideal S256x1024 .bf16) (v27 v43 v59 : FVec Ideal S256x1024 .f32)
    (v67 : FVec Ideal S1x1024 .f32) (v70 v71 : FVec Ideal S256x1024 .f32)
    (v76 : FVec Ideal S1024x512 .bf16) (v78 : FVec Ideal S1024x1024 .bf16) (v80 v82 : FVec Ideal S1x1024 .f32) (p : Fin 256) (q : Fin 1024) :
    k0_pay2 (F := Ideal) v1 v3 v27 v43 v59 v67 v70 v71 v76 v78 v80 v82 (ix2 p q)
      = Ideal.logistic ((∑ k : Fin 512, v1 (ix2 p k) * v76 (ix2 q k)) + (∑ k : Fin 1024, v3 (ix2 p k) * v78 (ix2 q k)) + v80 (ix2 0 q) + v82 (ix2 0 q))
        * Ideal.tanh (k0_pay1 (F := Ideal) v27 v43 v59 v67 v70 v71 (ix2 p q)) := by
  unfold k0_pay2
  simp only [shapeCast_self, mulf_apply, logistic_apply, tanh_apply]
  rw [gate_apply]

/-! ## The two stored values -/

/-- The value the body stores to the cell output, over the ten blocks it reads. -/
def cellPay (x0 : FVec Ideal S256x512 .f32) (x1 x2 : FVec Ideal S256x1024 .f32) (x3 : FVec Ideal S256x1 .f32)
    (x4 : FVec Ideal S4096x512 .bf16) (x5 : FVec Ideal S4096x1024 .bf16) (x6 x7 : FVec Ideal S1x4096 .f32)
    (x8 : FVec Ideal S1024x1024 .bf16) (x9 : FVec Ideal S1x1024 .f32) : FVec Ideal S256x1024 .f32 :=
  k0_pay1 (F := Ideal) (k0_pay5 x2 x3 x8 x9)
    (k0_pay9 (k0_pay3 x0) (k0_pay4 x1) (k0_pay6 (View.ld x4 r0_5)) (k0_pay7 (View.ld x5 r0_6)) (k0_pay8 (View.ld x6 r0_7)) (View.ld x7 r0_7))
    (k0_pay10 (k0_pay3 x0) (k0_pay4 x1) (View.ld x4 r0_8) (View.ld x5 r0_9) (View.ld x6 r0_10) (View.ld x7 r0_10))
    (k0_pay11 (View.ld x7 r0_13)) (k0_pay12 (k0_pay3 x0) (k0_pay4 x1) (View.ld x4 r0_11) (View.ld x5 r0_12)) (k0_pay13 (View.ld x6 r0_13))

/-- Rows of the stacked input weights through a gate's slice. -/
theorem ldI (x4 : Vec Ideal S4096x512 .bf16) {off : Nat} {inb : ∀ a, (![off, 0] : Fin 2 → Nat) a + S1024x512.size a ≤ S4096x512.size a}
    (hoff : off + 1024 ≤ 4096) (q : Fin 1024) (k : Fin 512) :
    View.ld x4 (Rect.unit (s := S4096x512) ![off, 0] S1024x512.size inb) (ix2 q k) = x4 (ix2 (gateRow off hoff q) k) :=
  congrArg x4 (rowsI_idx off inb hoff q k)

/-- Rows of the stacked recurrent weights through a gate's slice. -/
theorem ldH (x5 : Vec Ideal S4096x1024 .bf16) {off : Nat} {inb : ∀ a, (![off, 0] : Fin 2 → Nat) a + S1024x1024.size a ≤ S4096x1024.size a}
    (hoff : off + 1024 ≤ 4096) (q k : Fin 1024) :
    View.ld x5 (Rect.unit (s := S4096x1024) ![off, 0] S1024x1024.size inb) (ix2 q k) = x5 (ix2 (gateRow off hoff q) k) :=
  congrArg x5 (rowsH_idx off inb hoff q k)

/-- Columns of a stacked bias row through a gate's slice. -/
theorem ldB (x6 : Vec Ideal S1x4096 .f32) {off : Nat} {inb : ∀ a, (![0, off] : Fin 2 → Nat) a + S1x1024.size a ≤ S1x4096.size a}
    (hoff : off + 1024 ≤ 4096) (q : Fin 1024) :
    View.ld x6 (Rect.unit (s := S1x4096) ![0, off] S1x1024.size inb) (ix2 0 q) = x6 (ix2 0 (gateRow off hoff q)) :=
  congrArg x6 (colsB_idx off inb hoff q)

/-- The stored cell value at `(p, q)` is the cell formula of batch element `p` of the blocks and unit `q`. -/
theorem cellPay_apply (x0 : FVec Ideal S256x512 .f32) (x1 x2 : FVec Ideal S256x1024 .f32) (x3 : FVec Ideal S256x1 .f32)
    (x4 : FVec Ideal S4096x512 .bf16) (x5 : FVec Ideal S4096x1024 .bf16) (x6 x7 : FVec Ideal S1x4096 .f32)
    (x8 : FVec Ideal S1024x1024 .bf16) (x9 : FVec Ideal S1x1024 .f32) (p : Fin 256) (q : Fin 1024) :
    cellPay x0 x1 x2 x3 x4 x5 x6 x7 x8 x9 (ix2 p q) = cellNext (blkWeights x4 x5 x6 x7 x8 x9) (blkSample x0 x1 x2 x3 p) q := by
  unfold cellPay
  simp only [pay6_eq, pay7_eq, pay8_eq, pay11_eq]
  rw [pay1_apply, pay5_apply, pay9_apply, pay10_apply, pay12_apply, pay13_apply]
  simp only [pay3_apply, pay4_apply, r0_5, r0_6, r0_7, r0_8, r0_9, r0_10, r0_11, r0_12, r0_13,
    ldI x4 (off := 0) (by decide), ldI x4 (off := 1024) (by decide), ldI x4 (off := 2048) (by decide),
    ldH x5 (off := 0) (by decide), ldH x5 (off := 1024) (by decide), ldH x5 (off := 2048) (by decide),
    ldB x6 (off := 0) (by decide), ldB x6 (off := 1024) (by decide), ldB x6 (off := 2048) (by decide),
    ldB x7 (off := 0) (by decide), ldB x7 (off := 1024) (by decide), ldB x7 (off := 2048) (by decide)]
  rfl

/-- What the body leaves in the cell output's block. -/
theorem out11_eq (x0 : FVec Ideal S256x512 .f32) (x1 x2 : FVec Ideal S256x1024 .f32) (x3 : FVec Ideal S256x1 .f32)
    (x4 : FVec Ideal S4096x512 .bf16) (x5 : FVec Ideal S4096x1024 .bf16) (x6 x7 : FVec Ideal S1x4096 .f32)
    (x8 : FVec Ideal S1024x1024 .bf16) (x9 : FVec Ideal S1x1024 .f32) :
    out0_11 (F := Ideal) x0 x1 x2 x3 x4 x5 x6 x7 x8 x9 = cellPay x0 x1 x2 x3 x4 x5 x6 x7 x8 x9 := by
  unfold out0_11 cellPay
  rw [View.canon_unit_zero hz]
  simp only [View.ld_unit_zero (S := S256x512) hz, View.ld_unit_zero (S := S256x1024) hz, View.ld_unit_zero (S := S256x1) hz,
    View.ld_unit_zero (S := S1024x1024) hz, View.ld_unit_zero (S := S1x1024) hz]

/-- What the body leaves in the hidden output's block, at `(p, q)`. -/
theorem out10_apply (x0 : FVec Ideal S256x512 .f32) (x1 x2 : FVec Ideal S256x1024 .f32) (x3 : FVec Ideal S256x1 .f32)
    (x4 : FVec Ideal S4096x512 .bf16) (x5 : FVec Ideal S4096x1024 .bf16) (x6 x7 : FVec Ideal S1x4096 .f32)
    (x8 : FVec Ideal S1024x1024 .bf16) (x9 : FVec Ideal S1x1024 .f32) (p : Fin 256) (q : Fin 1024) :
    out0_10 (F := Ideal) x0 x1 x2 x3 x4 x5 x6 x7 x8 x9 (ix2 p q)
      = hiddenNext (blkWeights x4 x5 x6 x7 x8 x9) (blkSample x0 x1 x2 x3 p) q := by
  unfold out0_10
  rw [View.canon_unit_zero hz]
  simp only [View.ld_unit_zero (S := S256x512) hz, View.ld_unit_zero (S := S256x1024) hz, View.ld_unit_zero (S := S256x1) hz,
    View.ld_unit_zero (S := S1024x1024) hz, View.ld_unit_zero (S := S1x1024) hz]
  rw [pay2_apply]
  have hc := cellPay_apply x0 x1 x2 x3 x4 x5 x6 x7 x8 x9 p q
  unfold cellPay at hc
  rw [hc]
  simp only [pay3_apply, pay4_apply, r0_14, r0_15, r0_16,
    ldI x4 (off := 3072) (by decide), ldH x5 (off := 3072) (by decide), ldB x6 (off := 3072) (by decide), ldB x7 (off := 3072) (by decide)]
  rfl

end Cert.KernelIdeal.Block

end
-- ==== Proof.KernelArray.lean ====
/-
  From the blocks to the two result arrays.

  The grid has sixteen points; point `t` works on batch elements `256 t … 256 t + 255`. Its blocks of the input,
  hidden, cell and time arrays are those rows of the argument arrays, and it sees the six weight arrays whole: the
  stacked weights and the short-term matrix as the arguments themselves (rounding them to the narrower format is
  the identity at the ideal values), the bias vectors laid out as one row. So batch element `p` of point `t`'s
  blocks is batch element `256 t + p` of the arguments, the block's weights are the arguments' weights, and what
  point `t` writes back to each output is rows `256 t …` of the cell array, respectively the hidden array, of the
  arguments. Every row lies in exactly one point's block, so after the run the two output arrays are those arrays.
-/
import proofs.«154563_j7344394076758_1_alg».proof.Proof.Gen.KernelIdeal.Value
import proofs.«154563_j7344394076758_1_alg».proof.Proof.KernelCell
import Idealize.ShloMosaic.Lib.Pipeline.Value
import Idealize.ShloMosaic.Lib.StableHlo.Run
import Idealize.ShloMosaic.Lib.Tactic

noncomputable section

namespace Cert.KernelIdeal.Arr

open Cert.KernelIdeal Cert.KernelIdeal.Gen Cert.KernelIdeal.Value Cert.KernelIdeal.Block
open Idealize.ShloMosaic Idealize.ShloMosaic.TcCoe Idealize.SL.Sem Idealize.ShloMosaic.ValueIdx Cert.TLstm
open Idealize.ShloMosaic.Pipeline (Dat)

variable (m : (ℓ : Loc nD τ sig) → Buf (Elt Ideal) ℓ) (ρ : Dev nD → PrngReg)

/-! ## The argument arrays and a point's blocks, at their literal shapes -/

abbrev A0 (c : Dev nD) : FVec Ideal S4096x512 .f32 := m ((c : Thread nD τ).loc main_arg0)
abbrev A1 (c : Dev nD) : FVec Ideal S4096x1 .f32 := m ((c : Thread nD τ).loc main_arg1)
abbrev A2 (c : Dev nD) : FVec Ideal S4096x1024 .f32 := m ((c : Thread nD τ).loc main_arg2)
abbrev A3 (c : Dev nD) : FVec Ideal S4096x1024 .f32 := m ((c : Thread nD τ).loc main_arg3)
abbrev A4 (c : Dev nD) : FVec Ideal S4096x512 .f32 := m ((c : Thread nD τ).loc main_arg4)
abbrev A5 (c : Dev nD) : FVec Ideal S4096x1024 .f32 := m ((c : Thread nD τ).loc main_arg5)
abbrev A6 (c : Dev nD) : FVec Ideal S4096 .f32 := m ((c : Thread nD τ).loc main_arg6)
abbrev A7 (c : Dev nD) : FVec Ideal S4096 .f32 := m ((c : Thread nD τ).loc main_arg7)
abbrev A8 (c : Dev nD) : FVec Ideal S1024x1024 .f32 := m ((c : Thread nD τ).loc main_arg8)
abbrev A9 (c : Dev nD) : FVec Ideal S1024 .f32 := m ((c : Thread nD τ).loc main_arg9)

abbrev blk0 (c : Dev nD) (t : Fin cfg0.N) : FVec Ideal S256x512 .f32 := iblk m c 0 t
abbrev blk1 (c : Dev nD) (t : Fin cfg0.N) : FVec Ideal S256x1024 .f32 := iblk m c 1 t
abbrev blk2 (c : Dev nD) (t : Fin cfg0.N) : FVec Ideal S256x1024 .f32 := iblk m c 2 t
abbrev blk3 (c : Dev nD) (t : Fin cfg0.N) : FVec Ideal S256x1 .f32 := iblk m c 3 t
abbrev blk4 (c : Dev nD) (t : Fin cfg0.N) : FVec Ideal S4096x512 .bf16 := iblk m c 4 t
abbrev blk5 (c : Dev nD) (t : Fin cfg0.N) : FVec Ideal S4096x1024 .bf16 := iblk m c 5 t
abbrev blk6 (c : Dev nD) (t : Fin cfg0.N) : FVec Ideal S1x4096 .f32 := iblk m c 6 t
abbrev blk7 (c : Dev nD) (t : Fin cfg0.N) : FVec Ideal S1x4096 .f32 := iblk m c 7 t
abbrev blk8 (c : Dev nD) (t : Fin cfg0.N) : FVec Ideal S1024x1024 .bf16 := iblk m c 8 t
abbrev blk9 (c : Dev nD) (t : Fin cfg0.N) : FVec Ideal S1x1024 .f32 := iblk m c 9 t

/-- Batch element `p` of point `t`'s blocks is batch element `256 t + p` of the arrays. -/
def rowOf (t : Fin cfg0.N) (p : Fin 256) : Fin 4096 :=
  ⟨t.val * 256 + p.val, by have h : t.val < 16 := lt_of_lt_of_eq t.isLt N_0; have := p.isLt; omega⟩

/-! ## The arrays the region finds -/

/-- The stacked weights and the short-term matrix arrive rounded to the narrower format: the same values. -/
theorem V_wi (c : Dev nD) : (V m c main_v0 : S4096x512.Idx → EReal) = A4 m c := by
  dsimp only [Gen.V, Gen.hostOps0]; after_results; rfl
theorem V_wh (c : Dev nD) : (V m c main_v1 : S4096x1024.Idx → EReal) = A5 m c := by
  dsimp only [Gen.V, Gen.hostOps0]; after_results; rfl
theorem V_wd (c : Dev nD) : (V m c main_v2 : S1024x1024.Idx → EReal) = A8 m c := by
  dsimp only [Gen.V, Gen.hostOps0]; after_results; rfl

/-- The bias vectors arrive laid out as one row. -/
theorem V_bi (c : Dev nD) : (V m c main_v3 : S1x4096.Idx → EReal) = shapeCast S1x4096 (A6 m c) shapeCasts_S4096_S1x4096 := by
  dsimp only [Gen.V, Gen.hostOps0]; after_results; rfl
theorem V_bh (c : Dev nD) : (V m c main_v4 : S1x4096.Idx → EReal) = shapeCast S1x4096 (A7 m c) shapeCasts_S4096_S1x4096 := by
  dsimp only [Gen.V, Gen.hostOps0]; after_results; rfl
theorem V_bd (c : Dev nD) : (V m c main_v5 : S1x1024.Idx → EReal) = shapeCast S1x1024 (A9 m c) shapeCasts_S1024_S1x1024 := by
  dsimp only [Gen.V, Gen.hostOps0]; after_results; rfl

/-- A vector laid out as one row, read at `(0, r)`. -/
theorem row4096_apply (x : FVec Ideal S4096 .f32) (r : Fin 4096) :
    shapeCast S1x4096 x shapeCasts_S4096_S1x4096 (ix2 0 r) = x (ix1 r) :=
  (shapeCast_addUnit_apply ![4096] x shapeCasts_S4096_S1x4096 (ix2 0 r)).trans
    (congrArg x (funext fun a => by match a with | ⟨0, _⟩ => rfl))
theorem row1024_apply (x : FVec Ideal S1024 .f32) (r : Fin 1024) :
    shapeCast S1x1024 x shapeCasts_S1024_S1x1024 (ix2 0 r) = x (ix1 r) :=
  (shapeCast_addUnit_apply ![1024] x shapeCasts_S1024_S1x1024 (ix2 0 r)).trans
    (congrArg x (funext fun a => by match a with | ⟨0, _⟩ => rfl))

/-! ## The index maps, decided over the sixteen points -/

theorem idxB : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_10.index t (0 : Fin 2) = t.val ∧ win0_10.index t (1 : Fin 2) = 0)
    ∧ (win0_11.index t (0 : Fin 2) = t.val ∧ win0_11.index t (1 : Fin 2) = 0) :=
  (by decide +kernel : ∀ t : Fin grid0.N, _)

theorem idxR : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0) :=
  (by decide +kernel : ∀ t : Fin grid0.N, _)

/-! ## A point's blocks read off the arrays -/

theorem blk0_apply (c : Dev nD) (t : Fin cfg0.N) (p : Fin 256) (k : Fin 512) :
    blk0 m c t (ix2 p k) = A0 m c (ix2 (rowOf t p) k) := by
  obtain ⟨⟨h0, h1⟩, -⟩ := idxB t
  show V m c main_arg0 (((cfg0.win 0).blk t).view.emb (ix2 p k)) = _
  rw [V_main_arg0]
  refine congrArg (A0 m c) (funext fun a => Fin.ext ?_)
  match a with
  | ⟨0, _⟩ => show win0_0.index t (0 : Fin 2) * 256 + 1 * p.val = t.val * 256 + p.val; rw [h0]; omega
  | ⟨1, _⟩ => show win0_0.index t (1 : Fin 2) * 512 + 1 * k.val = k.val; rw [h1]; omega

theorem blk1_apply (c : Dev nD) (t : Fin cfg0.N) (p : Fin 256) (k : Fin 1024) :
    blk1 m c t (ix2 p k) = A2 m c (ix2 (rowOf t p) k) := by
  obtain ⟨-, ⟨h0, h1⟩, -⟩ := idxB t
  show V m c main_arg2 (((cfg0.win 1).blk t).view.emb (ix2 p k)) = _
  rw [V_main_arg2]
  refine congrArg (A2 m c) (funext fun a => Fin.ext ?_)
  match a with
  | ⟨0, _⟩ => show win0_1.index t (0 : Fin 2) * 256 + 1 * p.val = t.val * 256 + p.val; rw [h0]; omega
  | ⟨1, _⟩ => show win0_1.index t (1 : Fin 2) * 1024 + 1 * k.val = k.val; rw [h1]; omega

theorem blk2_apply (c : Dev nD) (t : Fin cfg0.N) (p : Fin 256) (k : Fin 1024) :
    blk2 m c t (ix2 p k) = A3 m c (ix2 (rowOf t p) k) := by
  obtain ⟨-, -, ⟨h0, h1⟩, -⟩ := idxB t
  show V m c main_arg3 (((cfg0.win 2).blk t).view.emb (ix2 p k)) = _
  rw [V_main_arg3]
  refine congrArg (A3 m c) (funext fun a => Fin.ext ?_)
  match a with
  | ⟨0, _⟩ => show win0_2.index t (0 : Fin 2) * 256 + 1 * p.val = t.val * 256 + p.val; rw [h0]; omega
  | ⟨1, _⟩ => show win0_2.index t (1 : Fin 2) * 1024 + 1 * k.val = k.val; rw [h1]; omega

theorem blk3_apply (c : Dev nD) (t : Fin cfg0.N) (p : Fin 256) :
    blk3 m c t (ix2 p 0) = A1 m c (ix2 (rowOf t p) 0) := by
  obtain ⟨-, -, -, ⟨h0, h1⟩, -⟩ := idxB t
  show V m c main_arg1 (((cfg0.win 3).blk t).view.emb (ix2 p 0)) = _
  rw [V_main_arg1]
  refine congrArg (A1 m c) (funext fun a => Fin.ext ?_)
  match a with
  | ⟨0, _⟩ => show win0_3.index t (0 : Fin 2) * 256 + 1 * p.val = t.val * 256 + p.val; rw [h0]; omega
  | ⟨1, _⟩ => show win0_3.index t (1 : Fin 2) * 1 + 1 * 0 = 0; rw [h1]

theorem blk4_apply (c : Dev nD) (t : Fin cfg0.N) (r : Fin 4096) (k : Fin 512) :
    blk4 m c t (ix2 r k) = A4 m c (ix2 r k) := by
  obtain ⟨⟨h0, h1⟩, -⟩ := idxR t
  show (V m c main_v0 : S4096x512.Idx → EReal) (((cfg0.win 4).blk t).view.emb (ix2 r k)) = _
  rw [V_wi]
  refine congrArg (A4 m c) (funext fun a => Fin.ext ?_)
  match a with
  | ⟨0, _⟩ => show win0_4.index t (0 : Fin 2) * 4096 + 1 * r.val = r.val; rw [h0]; omega
  | ⟨1, _⟩ => show win0_4.index t (1 : Fin 2) * 512 + 1 * k.val = k.val; rw [h1]; omega

theorem blk5_apply (c : Dev nD) (t : Fin cfg0.N) (r : Fin 4096) (k : Fin 1024) :
    blk5 m c t (ix2 r k) = A5 m c (ix2 r k) := by
  obtain ⟨-, ⟨h0, h1⟩, -⟩ := idxR t
  show (V m c main_v1 : S4096x1024.Idx → EReal) (((cfg0.win 5).blk t).view.emb (ix2 r k)) = _
  rw [V_wh]
  refine congrArg (A5 m c) (funext fun a => Fin.ext ?_)
  match a with
  | ⟨0, _⟩ => show win0_5.index t (0 : Fin 2) * 4096 + 1 * r.val = r.val; rw [h0]; omega
  | ⟨1, _⟩ => show win0_5.index t (1 : Fin 2) * 1024 + 1 * k.val = k.val; rw [h1]; omega

theorem blk6_apply (c : Dev nD) (t : Fin cfg0.N) (r : Fin 4096) :
    blk6 m c t (ix2 0 r) = A6 m c (ix1 r) := by
  obtain ⟨-, -, ⟨h0, h1⟩, -⟩ := idxR t
  show (V m c main_v3 : S1x4096.Idx → EReal) (((cfg0.win 6).blk t).view.emb (ix2 0 r)) = _
  rw [V_bi]
  refine Eq.trans (congrArg _ (funext fun a => Fin.ext ?_)) (row4096_apply (A6 m c) r)
  match a with
  | ⟨0, _⟩ => show win0_6.index t (0 : Fin 2) * 1 + 1 * 0 = 0; rw [h0]
  | ⟨1, _⟩ => show win0_6.index t (1 : Fin 2) * 4096 + 1 * r.val = r.val; rw [h1]; omega

theorem blk7_apply (c : Dev nD) (t : Fin cfg0.N) (r : Fin 4096) :
    blk7 m c t (ix2 0 r) = A7 m c (ix1 r) := by
  obtain ⟨-, -, -, ⟨h0, h1⟩, -⟩ := idxR t
  show (V m c main_v4 : S1x4096.Idx → EReal) (((cfg0.win 7).blk t).view.emb (ix2 0 r)) = _
  rw [V_bh]
  refine Eq.trans (congrArg _ (funext fun a => Fin.ext ?_)) (row4096_apply (A7 m c) r)
  match a with
  | ⟨0, _⟩ => show win0_7.index t (0 : Fin 2) * 1 + 1 * 0 = 0; rw [h0]
  | ⟨1, _⟩ => show win0_7.index t (1 : Fin 2) * 4096 + 1 * r.val = r.val; rw [h1]; omega

theorem blk8_apply (c : Dev nD) (t : Fin cfg0.N) (k j : Fin 1024) :
    blk8 m c t (ix2 k j) = A8 m c (ix2 k j) := by
  obtain ⟨-, -, -, -, ⟨h0, h1⟩, -⟩ := idxR t
  show (V m c main_v2 : S1024x1024.Idx → EReal) (((cfg0.win 8).blk t).view.emb (ix2 k j)) = _
  rw [V_wd]
  refine congrArg (A8 m c) (funext fun a => Fin.ext ?_)
  match a with
  | ⟨0, _⟩ => show win0_8.index t (0 : Fin 2) * 1024 + 1 * k.val = k.val; rw [h0]; omega
  | ⟨1, _⟩ => show win0_8.index t (1 : Fin 2) * 1024 + 1 * j.val = j.val; rw [h1]; omega

theorem blk9_apply (c : Dev nD) (t : Fin cfg0.N) (j : Fin 1024) :
    blk9 m c t (ix2 0 j) = A9 m c (ix1 j) := by
  obtain ⟨-, -, -, -, -, h0, h1⟩ := idxR t
  show (V m c main_v5 : S1x1024.Idx → EReal) (((cfg0.win 9).blk t).view.emb (ix2 0 j)) = _
  rw [V_bd]
  refine Eq.trans (congrArg _ (funext fun a => Fin.ext ?_)) (row1024_apply (A9 m c) j)
  match a with
  | ⟨0, _⟩ => show win0_9.index t (0 : Fin 2) * 1 + 1 * 0 = 0; rw [h0]
  | ⟨1, _⟩ => show win0_9.index t (1 : Fin 2) * 1024 + 1 * j.val = j.val; rw [h1]; omega

/-- The weights every point sees are the arguments' weights. -/
theorem weights_eq (c : Dev nD) (t : Fin cfg0.N) :
    blkWeights (blk4 m c t) (blk5 m c t) (blk6 m c t) (blk7 m c t) (blk8 m c t) (blk9 m c t)
      = arrWeights (A4 m c) (A5 m c) (A6 m c) (A7 m c) (A8 m c) (A9 m c) := by
  unfold blkWeights arrWeights
  congr 1
  · funext r k; exact blk4_apply m c t r k
  · funext r k; exact blk5_apply m c t r k
  · funext r; exact blk6_apply m c t r
  · funext r; exact blk7_apply m c t r
  · funext k j; exact blk8_apply m c t k j
  · funext j; exact blk9_apply m c t j

/-- Batch element `p` of point `t`'s blocks is batch element `256 t + p` of the arguments. -/
theorem sample_eq (c : Dev nD) (t : Fin cfg0.N) (p : Fin 256) :
    blkSample (blk0 m c t) (blk1 m c t) (blk2 m c t) (blk3 m c t) p
      = arrSample (A0 m c) (A1 m c) (A2 m c) (A3 m c) (rowOf t p) := by
  unfold blkSample arrSample
  congr 1
  · funext k; exact blk0_apply m c t p k
  · funext k; exact blk1_apply m c t p k
  · funext k; exact blk2_apply m c t p k
  · exact blk3_apply m c t p

/-! ## What a point writes back -/

/-- What point `t` leaves in the cell output's block: entry `(p, q)` is the cell formula of batch element `256 t + p` of
    the arguments and unit `q`. -/
theorem out11_blk (c : Dev nD) (t : Fin cfg0.N) :
    out0_11 (F := Ideal) (blk0 m c t) (blk1 m c t) (blk2 m c t) (blk3 m c t) (blk4 m c t) (blk5 m c t) (blk6 m c t) (blk7 m c t) (blk8 m c t) (blk9 m c t)
      = fun y : S256x1024.Idx => cellNext (arrWeights (A4 m c) (A5 m c) (A6 m c) (A7 m c) (A8 m c) (A9 m c)) (arrSample (A0 m c) (A1 m c) (A2 m c) (A3 m c) (rowOf t ⟨(y 0).val, (y 0).isLt⟩)) ⟨(y 1).val, (y 1).isLt⟩ := by
  funext y
  obtain ⟨p, q, rfl⟩ : ∃ (p : Fin 256) (q : Fin 1024), y = ix2 p q := ⟨y 0, y 1, eq_ix2 y⟩
  rw [out11_eq, cellPay_apply, weights_eq, sample_eq]

/-- The same for the hidden output's block. -/
theorem out10_blk (c : Dev nD) (t : Fin cfg0.N) :
    out0_10 (F := Ideal) (blk0 m c t) (blk1 m c t) (blk2 m c t) (blk3 m c t) (blk4 m c t) (blk5 m c t) (blk6 m c t) (blk7 m c t) (blk8 m c t) (blk9 m c t)
      = fun y : S256x1024.Idx => hiddenNext (arrWeights (A4 m c) (A5 m c) (A6 m c) (A7 m c) (A8 m c) (A9 m c)) (arrSample (A0 m c) (A1 m c) (A2 m c) (A3 m c) (rowOf t ⟨(y 0).val, (y 0).isLt⟩)) ⟨(y 1).val, (y 1).isLt⟩ := by
  funext y
  obtain ⟨p, q, rfl⟩ : ∃ (p : Fin 256) (q : Fin 1024), y = ix2 p q := ⟨y 0, y 1, eq_ix2 y⟩
  rw [out10_apply, weights_eq, sample_eq]

/-- Point `t` writes back rows `256 t …` of the cell array of the arguments. -/
theorem flushed11_eq (c : Dev nD) (t : Fin cfg0.N) :
    (dats m 0 c).flushed 11 t = ((cfg0.win 11).blk t).view.read (Elt Ideal) (cellArr (A0 m c) (A1 m c) (A2 m c) (A3 m c) (A4 m c) (A5 m c) (A6 m c) (A7 m c) (A8 m c) (A9 m c)) := by
  rw [Value.flushed11]
  show (cfg0.win 11).cut (grid0.coords t) (out0_11 (F := Ideal) (blk0 m c t) (blk1 m c t) (blk2 m c t) (blk3 m c t) (blk4 m c t) (blk5 m c t) (blk6 m c t) (blk7 m c t) (blk8 m c t) (blk9 m c t)) = _
  rw [out11_blk]
  obtain ⟨-, -, -, -, -, h0, h1⟩ := idxB t
  funext y
  have hy0 : (y 0).val < 256 := (y 0).isLt
  have hy1 : (y 1).val < 1024 := (y 1).isLt
  show cellNext (arrWeights (A4 m c) (A5 m c) (A6 m c) (A7 m c) (A8 m c) (A9 m c)) (arrSample (A0 m c) (A1 m c) (A2 m c) (A3 m c) (rowOf t ⟨(y 0).val, hy0⟩)) ⟨(y 1).val, hy1⟩
    = cellNext (arrWeights (A4 m c) (A5 m c) (A6 m c) (A7 m c) (A8 m c) (A9 m c)) (arrSample (A0 m c) (A1 m c) (A2 m c) (A3 m c) ⟨(((cfg0.win 11).blk t).view.emb y 0).val, (((cfg0.win 11).blk t).view.emb y 0).isLt⟩)
        ⟨(((cfg0.win 11).blk t).view.emb y 1).val, (((cfg0.win 11).blk t).view.emb y 1).isLt⟩
  have hr : (⟨(((cfg0.win 11).blk t).view.emb y 0).val, (((cfg0.win 11).blk t).view.emb y 0).isLt⟩ : Fin 4096) = rowOf t ⟨(y 0).val, hy0⟩ :=
    Fin.ext (by show win0_11.index t (0 : Fin 2) * 256 + 1 * (y 0).val = t.val * 256 + (y 0).val; rw [h0]; omega)
  have hq : (⟨(((cfg0.win 11).blk t).view.emb y 1).val, (((cfg0.win 11).blk t).view.emb y 1).isLt⟩ : Fin 1024) = ⟨(y 1).val, hy1⟩ :=
    Fin.ext (by show win0_11.index t (1 : Fin 2) * 1024 + 1 * (y 1).val = (y 1).val; rw [h1]; omega)
  rw [hr, hq]

/-- Point `t` writes back rows `256 t …` of the hidden array of the arguments. -/
theorem flushed10_eq (c : Dev nD) (t : Fin cfg0.N) :
    (dats m 0 c).flushed 10 t = ((cfg0.win 10).blk t).view.read (Elt Ideal) (hiddenArr (A0 m c) (A1 m c) (A2 m c) (A3 m c) (A4 m c) (A5 m c) (A6 m c) (A7 m c) (A8 m c) (A9 m c)) := by
  rw [Value.flushed10]
  show (cfg0.win 10).cut (grid0.coords t) (out0_10 (F := Ideal) (blk0 m c t) (blk1 m c t) (blk2 m c t) (blk3 m c t) (blk4 m c t) (blk5 m c t) (blk6 m c t) (blk7 m c t) (blk8 m c t) (blk9 m c t)) = _
  rw [out10_blk]
  obtain ⟨-, -, -, -, ⟨h0, h1⟩, -⟩ := idxB t
  funext y
  have hy0 : (y 0).val < 256 := (y 0).isLt
  have hy1 : (y 1).val < 1024 := (y 1).isLt
  show hiddenNext (arrWeights (A4 m c) (A5 m c) (A6 m c) (A7 m c) (A8 m c) (A9 m c)) (arrSample (A0 m c) (A1 m c) (A2 m c) (A3 m c) (rowOf t ⟨(y 0).val, hy0⟩)) ⟨(y 1).val, hy1⟩
    = hiddenNext (arrWeights (A4 m c) (A5 m c) (A6 m c) (A7 m c) (A8 m c) (A9 m c)) (arrSample (A0 m c) (A1 m c) (A2 m c) (A3 m c) ⟨(((cfg0.win 10).blk t).view.emb y 0).val, (((cfg0.win 10).blk t).view.emb y 0).isLt⟩)
        ⟨(((cfg0.win 10).blk t).view.emb y 1).val, (((cfg0.win 10).blk t).view.emb y 1).isLt⟩
  have hr : (⟨(((cfg0.win 10).blk t).view.emb y 0).val, (((cfg0.win 10).blk t).view.emb y 0).isLt⟩ : Fin 4096) = rowOf t ⟨(y 0).val, hy0⟩ :=
    Fin.ext (by show win0_10.index t (0 : Fin 2) * 256 + 1 * (y 0).val = t.val * 256 + (y 0).val; rw [h0]; omega)
  have hq : (⟨(((cfg0.win 10).blk t).view.emb y 1).val, (((cfg0.win 10).blk t).view.emb y 1).isLt⟩ : Fin 1024) = ⟨(y 1).val, hy1⟩ :=
    Fin.ext (by show win0_10.index t (1 : Fin 2) * 1024 + 1 * (y 1).val = (y 1).val; rw [h1]; omega)
  rw [hr, hq]

/-! ## Every row is in one point's block -/

theorem mem_blk10 (t : Fin cfg0.N) (i : S4096x1024.Idx) :
    i ∈ ((cfg0.win 10).blk t).view.set ↔ ∀ a : Fin 2, win0_10.index t a * S256x1024.size a ≤ (i a).val ∧ (i a).val < win0_10.index t a * S256x1024.size a + S256x1024.size a := by
  show i ∈ ((View.whole main_v6_0).slice (win0_10.rect t)).set ↔ _
  rw [View.set_slice_whole, Rect.mem_set_unit]
  exact Iff.rfl

theorem mem_blk11 (t : Fin cfg0.N) (i : S4096x1024.Idx) :
    i ∈ ((cfg0.win 11).blk t).view.set ↔ ∀ a : Fin 2, win0_11.index t a * S256x1024.size a ≤ (i a).val ∧ (i a).val < win0_11.index t a * S256x1024.size a + S256x1024.size a := by
  show i ∈ ((View.whole main_v6_1).slice (win0_11.rect t)).set ↔ _
  rw [View.set_slice_whole, Rect.mem_set_unit]
  exact Iff.rfl

/-- Row `r` lies in the block of point `r / 256`. -/
theorem cover10 (i : S4096x1024.Idx) : ∃ t : Fin cfg0.N, (cfg0.win 10).flush t = true ∧ i ∈ ((cfg0.win 10).blk t).view.set := by
  have hi0 : (i 0).val < 4096 := (i 0).isLt
  have hi1 : (i 1).val < 1024 := (i 1).isLt
  have hN : cfg0.N = 16 := N_0
  refine ⟨⟨(i 0).val / 256, by rw [hN]; omega⟩, flush0_10 _, ?_⟩
  obtain ⟨-, -, -, -, ⟨h0, h1⟩, -⟩ := idxB ⟨(i 0).val / 256, by rw [hN]; omega⟩
  rw [mem_blk10]
  intro a
  match a with
  | ⟨0, _⟩ =>
    show win0_10.index _ (0 : Fin 2) * 256 ≤ (i 0).val ∧ (i 0).val < win0_10.index _ (0 : Fin 2) * 256 + 256
    rw [h0]; show (i 0).val / 256 * 256 ≤ (i 0).val ∧ (i 0).val < (i 0).val / 256 * 256 + 256; omega
  | ⟨1, _⟩ =>
    show win0_10.index _ (1 : Fin 2) * 1024 ≤ (i 1).val ∧ (i 1).val < win0_10.index _ (1 : Fin 2) * 1024 + 1024
    rw [h1]; omega

theorem cover11 (i : S4096x1024.Idx) : ∃ t : Fin cfg0.N, (cfg0.win 11).flush t = true ∧ i ∈ ((cfg0.win 11).blk t).view.set := by
  have hi0 : (i 0).val < 4096 := (i 0).isLt
  have hi1 : (i 1).val < 1024 := (i 1).isLt
  have hN : cfg0.N = 16 := N_0
  refine ⟨⟨(i 0).val / 256, by rw [hN]; omega⟩, flush0_11 _, ?_⟩
  obtain ⟨-, -, -, -, -, h0, h1⟩ := idxB ⟨(i 0).val / 256, by rw [hN]; omega⟩
  rw [mem_blk11]
  intro a
  match a with
  | ⟨0, _⟩ =>
    show win0_11.index _ (0 : Fin 2) * 256 ≤ (i 0).val ∧ (i 0).val < win0_11.index _ (0 : Fin 2) * 256 + 256
    rw [h0]; show (i 0).val / 256 * 256 ≤ (i 0).val ∧ (i 0).val < (i 0).val / 256 * 256 + 256; omega
  | ⟨1, _⟩ =>
    show win0_11.index _ (1 : Fin 2) * 1024 ≤ (i 1).val ∧ (i 1).val < win0_11.index _ (1 : Fin 2) * 1024 + 1024
    rw [h1]; omega

/-! ## The two arrays after the run -/

theorem final10 (c : Dev nD) : (dats m 0 c).arrAt 10 cfg0.N
    = hiddenArr (A0 m c) (A1 m c) (A2 m c) (A3 m c) (A4 m c) (A5 m c) (A6 m c) (A7 m c) (A8 m c) (A9 m c) :=
  (dats m 0 c).arrAt_eq_of_cover 10 _ (fun t _ => flushed10_eq m c t) cover10

theorem final11 (c : Dev nD) : (dats m 0 c).arrAt 11 cfg0.N
    = cellArr (A0 m c) (A1 m c) (A2 m c) (A3 m c) (A4 m c) (A5 m c) (A6 m c) (A7 m c) (A8 m c) (A9 m c) :=
  (dats m 0 c).arrAt_eq_of_cover 11 _ (fun t _ => flushed11_eq m c t) cover11

/-- The kernel's run: the hidden output ends at the hidden array of the arguments, the cell output at their cell
    array, and the arguments are unchanged. -/
theorem run : θ_run defs (onTc (τ := τ) (main (F := Ideal))) ⟨m, fun _ => 0, ρ⟩ fun r => ∀ c : Dev nD,
      r.2.mem ((c : Thread nD τ).loc main_v6_0) = hiddenArr (A0 m c) (A1 m c) (A2 m c) (A3 m c) (A4 m c) (A5 m c) (A6 m c) (A7 m c) (A8 m c) (A9 m c)
      ∧ r.2.mem ((c : Thread nD τ).loc main_v6_1) = cellArr (A0 m c) (A1 m c) (A2 m c) (A3 m c) (A4 m c) (A5 m c) (A6 m c) (A7 m c) (A8 m c) (A9 m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (Value.run_blocks m ρ)

end Cert.KernelIdeal.Arr

end
-- ==== Proof.RefCell.lean ====
/-
  The reference's two results, entry by entry.

  The reference forms all four gates at once: one 4096 × 4096 array of pre-activations (input times the transposed
  stacked input weights, plus the first stacked bias, plus hidden times the transposed stacked recurrent weights,
  plus the second stacked bias), cut into four 4096 × 1024 slices at column offsets 0, 1024, 2048, 3072. Entry
  `(b, r)` of that array is the pre-activation of row `r` of the stacked gates for batch element `b`; only the order
  in which the bias and the second product are added differs from the cell formula, and addition on the extended
  reals is commutative and associative. The logistic function is spelt `1 / (1 + e^(−x))`, which is its definition.
  The decay compares with "not equal" in its unordered form, which on the extended reals is the ordered one. So at
  entry `(b, j)` the reference's cell result is the cell formula of batch element `b` of the argument arrays and
  unit `j`, and its hidden result the hidden formula.
-/
import proofs.«154563_j7344394076758_1_alg».proof.Proof.Gen.ReferenceIdeal.Read
import proofs.«154563_j7344394076758_1_alg».proof.Proof.Cell

noncomputable section

namespace Cert.ReferenceIdeal.RefValue

open Cert.ReferenceIdeal Cert.ReferenceIdeal.Gen Cert.ReferenceIdeal.Read Idealize.ShloMosaic Idealize.ShloMosaic.TcCoe
open Idealize.ShloMosaic.ValueIdx Cert.TLstm

variable (a0 : (⟨S4096x512, .f32⟩ : BufTy).Contents (Elt Ideal)) (a1 : (⟨S4096x1, .f32⟩ : BufTy).Contents (Elt Ideal))
  (a2 a3 : (⟨S4096x1024, .f32⟩ : BufTy).Contents (Elt Ideal)) (a4 : (⟨S4096x512, .f32⟩ : BufTy).Contents (Elt Ideal))
  (a5 : (⟨S4096x1024, .f32⟩ : BufTy).Contents (Elt Ideal)) (a6 a7 : (⟨S4096, .f32⟩ : BufTy).Contents (Elt Ideal))
  (a8 : (⟨S1024x1024, .f32⟩ : BufTy).Contents (Elt Ideal)) (a9 : (⟨S1024, .f32⟩ : BufTy).Contents (Elt Ideal))

/-- The array of all gates' pre-activations at `(b, r)`: row `r` of the stacked gates for batch element `b`. -/
theorem gates_apply (b r : Fin 4096) :
    val_main_v10 (F := Ideal) a0 a2 a4 a5 a6 a7 (ix2 b r)
      = (∑ k : Fin 512, a0 (ix2 b k) * a4 (ix2 r k)) + (∑ k : Fin 1024, a2 (ix2 b k) * a5 (ix2 r k)) + a6 (ix1 r) + a7 (ix1 r) := by
  have e1 : ∀ k : Fin 512, lidx_main_v1 (ix2 b r) k = ix2 b k := fun k => funext fun a => Fin.ext (by
    match a with | ⟨0, _⟩ => rfl | ⟨1, _⟩ => rfl)
  have e2 : ∀ k : Fin 512, idx_main_v0 (ridx_main_v1 (ix2 b r) k) = ix2 r k := fun k => funext fun a => Fin.ext (by
    match a with | ⟨0, _⟩ => rfl | ⟨1, _⟩ => rfl)
  have e3 : ∀ k : Fin 1024, lidx_main_v6 (ix2 b r) k = ix2 b k := fun k => funext fun a => Fin.ext (by
    match a with | ⟨0, _⟩ => rfl | ⟨1, _⟩ => rfl)
  have e4 : ∀ k : Fin 1024, idx_main_v5 (ridx_main_v6 (ix2 b r) k) = ix2 r k := fun k => funext fun a => Fin.ext (by
    match a with | ⟨0, _⟩ => rfl | ⟨1, _⟩ => rfl)
  have e5 : idx_main_v2 (idx_main_v3 (ix2 b r)) = ix1 r := funext fun a => Fin.ext (by
    match a with | ⟨0, _⟩ => rfl)
  have e6 : idx_main_v8 (idx_main_v9 (ix2 b r)) = ix1 r := funext fun a => Fin.ext (by
    match a with | ⟨0, _⟩ => rfl)
  rw [val_main_v10_apply, val_main_v7_apply, val_main_v4_apply, val_main_v1_apply, val_main_v6_apply, val_main_v3_apply,
    val_main_v2_apply, val_main_v9_apply, val_main_v8_apply]
  simp only [val_main_v0_apply, val_main_v5_apply, e1, e2, e3, e4, e5, e6, Ideal.addf_def]
  exact congrArg (· + a7 (ix1 r)) (add_right_comm _ _ _)

/-- The four slices: gate rows at offsets 0, 1024, 2048, 3072. -/
theorem slice0_apply (b : Fin 4096) (j : Fin 1024) :
    val_main_v11 (F := Ideal) a0 a2 a4 a5 a6 a7 (ix2 b j) = val_main_v10 (F := Ideal) a0 a2 a4 a5 a6 a7 (ix2 b (gateRow 0 (by decide) j)) := by
  rw [val_main_v11_apply]
  refine congrArg _ (funext fun a => Fin.ext (by
    match a with | ⟨0, _⟩ => rfl | ⟨1, _⟩ => show j.val = 0 + j.val; omega))

theorem slice1_apply (b : Fin 4096) (j : Fin 1024) :
    val_main_v12 (F := Ideal) a0 a2 a4 a5 a6 a7 (ix2 b j) = val_main_v10 (F := Ideal) a0 a2 a4 a5 a6 a7 (ix2 b (gateRow 1024 (by decide) j)) := by
  rw [val_main_v12_apply]
  refine congrArg _ (funext fun a => Fin.ext (by
    match a with | ⟨0, _⟩ => rfl | ⟨1, _⟩ => rfl))

theorem slice2_apply (b : Fin 4096) (j : Fin 1024) :
    val_main_v13 (F := Ideal) a0 a2 a4 a5 a6 a7 (ix2 b j) = val_main_v10 (F := Ideal) a0 a2 a4 a5 a6 a7 (ix2 b (gateRow 2048 (by decide) j)) := by
  rw [val_main_v13_apply]
  refine congrArg _ (funext fun a => Fin.ext (by
    match a with | ⟨0, _⟩ => rfl | ⟨1, _⟩ => rfl))

theorem slice3_apply (b : Fin 4096) (j : Fin 1024) :
    val_main_v14 (F := Ideal) a0 a2 a4 a5 a6 a7 (ix2 b j) = val_main_v10 (F := Ideal) a0 a2 a4 a5 a6 a7 (ix2 b (gateRow 3072 (by decide) j)) := by
  rw [val_main_v14_apply]
  refine congrArg _ (funext fun a => Fin.ext (by
    match a with | ⟨0, _⟩ => rfl | ⟨1, _⟩ => rfl))

/-- The three logistic gates: `1 / (1 + e^(−x))` of their slices. -/
theorem sigI_apply (i : S4096x1024.Idx) :
    val_main_v37 (F := Ideal) a0 a2 a4 a5 a6 a7 i = Ideal.logistic (val_main_v11 (F := Ideal) a0 a2 a4 a5 a6 a7 i) := by
  rw [val_main_v37_apply, val_main_v36_apply, val_main_cst_5_apply, val_main_v35_apply, val_main_v34_apply, val_main_cst_4_apply,
    val_main_v33_apply, val_main_v32_apply]
  exact sigmoid_eq _

theorem sigF_apply (i : S4096x1024.Idx) :
    val_main_v43 (F := Ideal) a0 a2 a4 a5 a6 a7 i = Ideal.logistic (val_main_v12 (F := Ideal) a0 a2 a4 a5 a6 a7 i) := by
  rw [val_main_v43_apply, val_main_v42_apply, val_main_cst_7_apply, val_main_v41_apply, val_main_v40_apply, val_main_cst_6_apply,
    val_main_v39_apply, val_main_v38_apply]
  exact sigmoid_eq _

theorem sigO_apply (i : S4096x1024.Idx) :
    val_main_v50 (F := Ideal) a0 a2 a4 a5 a6 a7 i = Ideal.logistic (val_main_v14 (F := Ideal) a0 a2 a4 a5 a6 a7 i) := by
  rw [val_main_v50_apply, val_main_v49_apply, val_main_cst_9_apply, val_main_v48_apply, val_main_v47_apply, val_main_cst_8_apply,
    val_main_v46_apply, val_main_v45_apply]
  exact sigmoid_eq _

/-- The decay column, broadcast across the hidden units. -/
theorem decay_apply (b : Fin 4096) (j : Fin 1024) :
    val_main_v23 (F := Ideal) a1 (ix2 b j) = decay (a1 (ix2 b 0)) := by
  have e : idx_main_v23 (ix2 b j) = ix2 b 0 := funext fun a => Fin.ext (by
    match a with | ⟨0, _⟩ => rfl | ⟨1, _⟩ => rfl)
  rw [val_main_v23_apply, e, val_main_v22_apply, val_main_v16_apply, val_main_v15_apply, val_main_cst_apply,
    val_main_v21_apply, val_main_v20_apply, val_main_cst_2_apply, val_main_v19_apply, val_main_v18_apply, val_main_v17_apply,
    val_main_cst_0_apply, val_main_call0_v1_apply, val_main_call0_v0_apply, val_main_cst_1_apply,
    val_main_call1_v1_apply, val_main_call1_v0_apply, val_main_cst_3_apply]
  rfl

/-- The short-term memory. -/
theorem short_apply (b : Fin 4096) (j : Fin 1024) :
    val_main_v28 (F := Ideal) a3 a8 a9 (ix2 b j) = Ideal.tanh ((∑ k : Fin 1024, a3 (ix2 b k) * a8 (ix2 k j)) + a9 (ix1 j)) := by
  have e1 : ∀ k : Fin 1024, lidx_main_v24 (ix2 b j) k = ix2 b k := fun k => funext fun a => Fin.ext (by
    match a with | ⟨0, _⟩ => rfl | ⟨1, _⟩ => rfl)
  have e2 : ∀ k : Fin 1024, ridx_main_v24 (ix2 b j) k = ix2 k j := fun k => funext fun a => Fin.ext (by
    match a with | ⟨0, _⟩ => rfl | ⟨1, _⟩ => rfl)
  have e3 : idx_main_v25 (idx_main_v26 (ix2 b j)) = ix1 j := funext fun a => Fin.ext (by
    match a with | ⟨0, _⟩ => rfl)
  rw [val_main_v28_apply, val_main_v27_apply, val_main_v24_apply, val_main_v26_apply, val_main_v25_apply]
  simp only [e1, e2, e3]
  rfl

/-- The reference's cell result at `(b, j)`. -/
theorem cell_apply (b : Fin 4096) (j : Fin 1024) :
    val_main_v53 (F := Ideal) a0 a1 a2 a3 a4 a5 a6 a7 a8 a9 (ix2 b j)
      = cellNext (arrWeights a4 a5 a6 a7 a8 a9) (arrSample a0 a1 a2 a3 b) j := by
  rw [val_main_v53_apply, val_main_v51_apply, val_main_v52_apply, val_main_v31_apply, val_main_v29_apply, val_main_v30_apply,
    val_main_v44_apply, sigF_apply, sigI_apply, slice0_apply, slice1_apply, slice2_apply, gates_apply, gates_apply, gates_apply,
    decay_apply, short_apply]
  rfl

/-- The reference's hidden result at `(b, j)`. -/
theorem hidden_apply (b : Fin 4096) (j : Fin 1024) :
    val_main_v55 (F := Ideal) a0 a1 a2 a3 a4 a5 a6 a7 a8 a9 (ix2 b j)
      = hiddenNext (arrWeights a4 a5 a6 a7 a8 a9) (arrSample a0 a1 a2 a3 b) j := by
  rw [val_main_v55_apply, val_main_v54_apply, cell_apply, sigO_apply, slice3_apply, gates_apply]
  rfl

/-- The reference's cell result is the cell array of the arguments. -/
theorem cell_eq : val_main_v53 (F := Ideal) a0 a1 a2 a3 a4 a5 a6 a7 a8 a9 = cellArr a0 a1 a2 a3 a4 a5 a6 a7 a8 a9 := by
  funext i
  obtain ⟨b, j, rfl⟩ : ∃ (b : Fin 4096) (j : Fin 1024), i = ix2 b j := ⟨i 0, i 1, eq_ix2 i⟩
  exact cell_apply a0 a1 a2 a3 a4 a5 a6 a7 a8 a9 b j

/-- The reference's hidden result is the hidden array of the arguments. -/
theorem hidden_eq : val_main_v55 (F := Ideal) a0 a1 a2 a3 a4 a5 a6 a7 a8 a9 = hiddenArr a0 a1 a2 a3 a4 a5 a6 a7 a8 a9 := by
  funext i
  obtain ⟨b, j, rfl⟩ : ∃ (b : Fin 4096) (j : Fin 1024), i = ix2 b j := ⟨i 0, i 1, eq_ix2 i⟩
  exact hidden_apply a0 a1 a2 a3 a4 a5 a6 a7 a8 a9 b j

end Cert.ReferenceIdeal.RefValue

end
-- ==== Proof.lean ====
/-
  The time-aware LSTM cell: a fused kernel against its plain description.

  Both programs take a batch of 4096 elements — input rows (512 wide), hidden and cell rows (1024 wide), one elapsed
  time each — and the cell's weights, and return the new hidden and cell arrays. The kernel works on 256 batch
  elements per grid point, slices the stacked gate weights gate by gate, rounds the factors of its products to a
  narrower format and calls the logistic function by name; the reference forms all gates in one 4096 × 4096 array,
  slices the result, and spells the logistic function `1 / (1 + e^(−x))`. Read on the extended reals with exact
  operations, every entry of either result is the same formula of one batch element and the weights
  (`Cert.TLstm.cellNext`, `Cert.TLstm.hiddenNext`): rounding is the identity, a sum does not depend on how it is
  tiled, the named logistic function is its spelt-out form, and the one difference in the order of a gate's four
  summands is undone by commutativity and associativity of addition, which hold on the extended reals without any
  finiteness assumption. So the precondition is never opened.

  The kernel's side: what the body stores at an entry of its blocks (`Proof/KernelCell.lean`), and the blocks laid
  into the arrays (`Proof/KernelArray.lean`, over the generated blockwise value leg). The reference's side: its
  operations read one at a time at an entry (`Proof/RefCell.lean`, over the generated run and its read lemmas).
  The three frames are the generated ones; the idealized kernel is the kernel's own text, so `preserves` asks nothing.
-/
import proofs.«154563_j7344394076758_1_alg».proof.Defs
import proofs.«154563_j7344394076758_1_alg».proof.Proof.Gen.Kernel
import proofs.«154563_j7344394076758_1_alg».proof.Proof.Gen.Kernel.Skeleton
import proofs.«154563_j7344394076758_1_alg».proof.Proof.Gen.Kernel.Launch
import proofs.«154563_j7344394076758_1_alg».proof.Proof.Gen.Kernel.Points
import proofs.«154563_j7344394076758_1_alg».proof.Proof.Gen.Kernel.Frame
import proofs.«154563_j7344394076758_1_alg».proof.Proof.Gen.KernelIdeal
import proofs.«154563_j7344394076758_1_alg».proof.Proof.Gen.KernelIdeal.Skeleton
import proofs.«154563_j7344394076758_1_alg».proof.Proof.Gen.KernelIdeal.Launch
import proofs.«154563_j7344394076758_1_alg».proof.Proof.Gen.KernelIdeal.Points
import proofs.«154563_j7344394076758_1_alg».proof.Proof.Gen.KernelIdeal.Frame
import proofs.«154563_j7344394076758_1_alg».proof.Proof.Gen.ReferenceIdeal
import proofs.«154563_j7344394076758_1_alg».proof.Proof.Gen.Pre_finite_inputs
import proofs.«154563_j7344394076758_1_alg».proof.Proof.Gen.KernelIdeal.Value
import proofs.«154563_j7344394076758_1_alg».proof.Proof.Gen.ReferenceIdeal.Run
import proofs.«154563_j7344394076758_1_alg».proof.Proof.Gen.ReferenceIdeal.Read
import proofs.«154563_j7344394076758_1_alg».proof.Proof.KernelArray
import proofs.«154563_j7344394076758_1_alg».proof.Proof.RefCell
import Idealize.ShloMosaic.Adequacy
import Idealize.ShloMosaic.Init

noncomputable section

namespace Cert.Proof

open Idealize.ShloMosaic Idealize.SL.Sem Cert.TLstm

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-- From memories that agree on the ten arguments, the kernel's hidden and cell outputs end at the hidden and cell
    arrays of the arguments, and so do the reference's two results. -/
theorem algebraic : Cert.algebraic_KernelIdeal_ReferenceIdeal := by
  intro m ρ m' ρ' _ hagree
  refine ⟨fun c => hiddenArr (Cert.KernelIdeal.Arr.A0 m c) (Cert.KernelIdeal.Arr.A1 m c) (Cert.KernelIdeal.Arr.A2 m c) (Cert.KernelIdeal.Arr.A3 m c) (Cert.KernelIdeal.Arr.A4 m c) (Cert.KernelIdeal.Arr.A5 m c) (Cert.KernelIdeal.Arr.A6 m c) (Cert.KernelIdeal.Arr.A7 m c) (Cert.KernelIdeal.Arr.A8 m c) (Cert.KernelIdeal.Arr.A9 m c), fun c => cellArr (Cert.KernelIdeal.Arr.A0 m c) (Cert.KernelIdeal.Arr.A1 m c) (Cert.KernelIdeal.Arr.A2 m c) (Cert.KernelIdeal.Arr.A3 m c) (Cert.KernelIdeal.Arr.A4 m c) (Cert.KernelIdeal.Arr.A5 m c) (Cert.KernelIdeal.Arr.A6 m c) (Cert.KernelIdeal.Arr.A7 m c) (Cert.KernelIdeal.Arr.A8 m c) (Cert.KernelIdeal.Arr.A9 m c), Cert.KernelIdeal.Arr.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨e0, e1, e2, e3, e4, e5, e6, e7, e8, e9⟩ := hagree c
    rw [Cert.ReferenceIdeal.Read.val_main_v55_eq, Cert.ReferenceIdeal.RefValue.hidden_eq, e0, e1, e2, e3, e4, e5, e6, e7, e8, e9]
  · obtain ⟨e0, e1, e2, e3, e4, e5, e6, e7, e8, e9⟩ := hagree c
    rw [Cert.ReferenceIdeal.Read.val_main_v53_eq, Cert.ReferenceIdeal.RefValue.cell_eq, e0, e1, e2, e3, e4, e5, e6, e7, e8, e9]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
